-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x128x1024 : Shape := ⟨3, ![64, 128, 1024]⟩
abbrev S256x128x5 : Shape := ⟨3, ![256, 128, 5]⟩
abbrev S256 : Shape := ⟨1, ![256]⟩
abbrev S_ : Shape := ⟨0, ![]⟩

class Facts : Prop where
  bcast_S_S64x128x1024 : S_.BroadcastsInDim S64x128x1024 (![] : Fin 0 → Fin S64x128x1024.rank)
  reducesTo_S64x128x1024_S_d0_1_2 : S64x128x1024.ReducesTo [0, 1, 2] S_
  h_S_ : 0 < S_.numel
  bcast_S_S256x128x5 : S_.BroadcastsInDim S256x128x5 (![] : Fin 0 → Fin S256x128x5.rank)
  reducesTo_S256x128x5_S_d0_1_2 : S256x128x5.ReducesTo [0, 1, 2] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S64x128x1024 .f32) (main_arg1 : FVec F S256x128x5 .f32) (main_arg2 : FVec F S256 .f32) (main_arg3 : FVec F S256 .f32) : IVec S_ 1 :=
  let main_v0 : FVec F S64x128x1024 .f32 := Host.absf main_arg0
  let main_cst : FVec F S_ .f32 := constant S_ .f32 0x7F800000#32
  let main_v1 : FVec F S64x128x1024 .f32 := broadcastInDim S64x128x1024 ![] bcast_S_S64x128x1024 main_cst
  let main_v2 : IVec S64x128x1024 1 := cmpf .olt main_v0 main_v1
  let main_c : IVec S_ 1 := constantI S_ 1 1#1
  let main_v3 : IVec S_ 1 := (fun x v => Host.reduce IntOp.andi x v reducesTo_S64x128x1024_S_d0_1_2 h_S_) main_v2 main_c
  let main_v4 : FVec F S256x128x5 .f32 := Host.absf main_arg1
  let main_cst_0 : FVec F S_ .f32 := constant S_ .f32 0x7F800000#32
  let main_v5 : FVec F S256x128x5 .f32 := broadcastInDim S256x128x5 ![] bcast_S_S256x128x5 main_cst_0
  let main_v6 : IVec S256x128x5 1 := cmpf .olt main_v4 main_v5
  let main_c_1 : IVec S_ 1 := constantI S_ 1 1#1
  let main_v7 : IVec S_ 1 := (fun x v => Host.reduce IntOp.andi x v reducesTo_S256x128x5_S_d0_1_2 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S64x128x1024 : Shape := ⟨3, ![64, 128, 1024]⟩
abbrev S256x128x5 : Shape := ⟨3, ![256, 128, 5]⟩
abbrev S256 : Shape := ⟨1, ![256]⟩
abbrev S5x256x128 : Shape := ⟨3, ![5, 256, 128]⟩
abbrev S64x256x1024 : Shape := ⟨3, ![64, 256, 1024]⟩
abbrev S64x2x256 : Shape := ⟨3, ![64, 2, 256]⟩
abbrev S1x128x1024 : Shape := ⟨3, ![1, 128, 1024]⟩
abbrev S1x256x1024 : Shape := ⟨3, ![1, 256, 1024]⟩
abbrev S1x2x256 : Shape := ⟨3, ![1, 2, 256]⟩
abbrev S128x1024 : Shape := ⟨2, ![128, 1024]⟩
abbrev S128x2 : Shape := ⟨2, ![128, 2]⟩
abbrev S128x1028 : Shape := ⟨2, ![128, 1028]⟩
abbrev S1x256x128 : Shape := ⟨3, ![1, 256, 128]⟩
abbrev S256x128 : Shape := ⟨2, ![256, 128]⟩
abbrev S256x1024 : Shape := ⟨2, ![256, 1024]⟩
abbrev S1x256 : Shape := ⟨2, ![1, 256]⟩
abbrev S2x256 : Shape := ⟨2, ![2, 256]⟩
abbrev S256x1 : Shape := ⟨2, ![256, 1]⟩

abbrev nBuf : Space → Nat
  | .hbm => 11
  | .vmem => 14
  | .smem => 0
  | _ => 0

abbrev bufTy : (tb : Table) → Fin (tcTables nBuf tb) → BufTy
  | .hbm, ⟨0, _⟩ => ⟨S64x128x1024, .f32⟩
  | .hbm, ⟨1, _⟩ => ⟨S256x128x5, .f32⟩
  | .hbm, ⟨2, _⟩ => ⟨S256, .f32⟩
  | .hbm, ⟨3, _⟩ => ⟨S256, .f32⟩
  | .hbm, ⟨4, _⟩ => ⟨S5x256x128, .f32⟩
  | .hbm, ⟨5, _⟩ => ⟨S5x256x128, .bf16⟩
  | .hbm, ⟨6, _⟩ => ⟨S64x256x1024, .bf16⟩
  | .hbm, ⟨7, _⟩ => ⟨S64x2x256, .f32⟩
  | .hbm, ⟨8, _⟩ => ⟨S1x256, .f32⟩
  | .hbm, ⟨9, _⟩ => ⟨S1x256, .f32⟩
  | .hbm, ⟨10, _⟩ => ⟨S64x256x1024, .f32⟩
  | .local _ .vmem, ⟨0, _⟩ => ⟨S1x128x1024, .f32⟩
  | .local _ .vmem, ⟨1, _⟩ => ⟨S1x128x1024, .f32⟩
  | .local _ .vmem, ⟨2, _⟩ => ⟨S5x256x128, .bf16⟩
  | .local _ .vmem, ⟨3, _⟩ => ⟨S1x256x1024, .bf16⟩
  | .local _ .vmem, ⟨4, _⟩ => ⟨S1x256x1024, .bf16⟩
  | .local _ .vmem, ⟨5, _⟩ => ⟨S1x2x256, .f32⟩
  | .local _ .vmem, ⟨6, _⟩ => ⟨S1x2x256, .f32⟩
  | .local _ .vmem, ⟨7, _⟩ => ⟨S1x256x1024, .bf16⟩
  | .local _ .vmem, ⟨8, _⟩ => ⟨S1x256x1024, .bf16⟩
  | .local _ .vmem, ⟨9, _⟩ => ⟨S64x2x256, .f32⟩
  | .local _ .vmem, ⟨10, _⟩ => ⟨S1x256, .f32⟩
  | .local _ .vmem, ⟨11, _⟩ => ⟨S1x256, .f32⟩
  | .local _ .vmem, ⟨12, _⟩ => ⟨S1x256x1024, .f32⟩
  | .local _ .vmem, ⟨13, _⟩ => ⟨S1x256x1024, .f32⟩
  | _, _ => ⟨S64x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5x256x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![64], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x256x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x2x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1x256x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  transposes_S256x128x5_S5x256x128_2_0_1 : S256x128x5.Transposes [2, 0, 1] S5x256x128
  bitsLt_bf16_f32 : FTy.bits .bf16 < FTy.bits .f32
  inb_S1x128x1024_S1x128x1024_0_0_0 : ∀ a, (![0, 0, 0] : Fin 3 → Nat) a + S1x128x1024.size a ≤ S1x128x1024.size a
  h_S1x128x1024 : 0 < S1x128x1024.numel
  shapeCasts_S1x128x1024_S128x1024 : S1x128x1024.ShapeCasts S128x1024
  concatenates_S128x2_S128x1024_S128x2_S128x1028_d1 : Shape.Concatenates [S128x2, S128x1024, S128x2] S128x1028 1
  inb_S5x256x128_S1x256x128_0_0_0 : ∀ a, (![0, 0, 0] : Fin 3 → Nat) a + S1x256x128.size a ≤ S5x256x128.size a
  h_S1x256x128 : 0 < S1x256x128.numel
  shapeCasts_S1x256x128_S256x128 : S1x256x128.ShapeCasts S256x128
  slices_S128x1028_o0_0_S128x1024 : S128x1028.Slices ![0, 0] S128x1024
  inb_S5x256x128_S1x256x128_1_0_0 : ∀ a, (![1, 0, 0] : Fin 3 → Nat) a + S1x256x128.size a ≤ S5x256x128.size a
  slices_S128x1028_o0_1_S128x1024 : S128x1028.Slices ![0, 1] S128x1024
  inb_S5x256x128_S1x256x128_2_0_0 : ∀ a, (![2, 0, 0] : Fin 3 → Nat) a + S1x256x128.size a ≤ S5x256x128.size a
  slices_S128x1028_o0_2_S128x1024 : S128x1028.Slices ![0, 2] S128x1024
  inb_S5x256x128_S1x256x128_3_0_0 : ∀ a, (![3, 0, 0] : Fin 3 → Nat) a + S1x256x128.size a ≤ S5x256x128.size a
  slices_S128x1028_o0_3_S128x1024 : S128x1028.Slices ![0, 3] S128x1024
  inb_S5x256x128_S1x256x128_4_0_0 : ∀ a, (![4, 0, 0] : Fin 3 → Nat) a + S1x256x128.size a ≤ S5x256x128.size a
  slices_S128x1028_o0_4_S128x1024 : S128x1028.Slices ![0, 4] S128x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  shapeCasts_S256x1024_S1x256x1024 : S256x1024.ShapeCasts S1x256x1024
  packedbf16_S1x256x1024_S1x256x1024_0_0_0 : (Rect.unit (s := S1x256x1024) ![0, 0, 0] S1x256x1024.size inb_S1x256x1024_S1x256x1024_0_0_0).PackedRows (EltTy.packing .bf16)
  reduces_S256x1024_S256 : S256x1024.Reduces [1] S256
  shapeCasts_S256_S1x256 : S256.ShapeCasts S1x256
  concatenates_S1x256_S1x256_S2x256_d0 : Shape.Concatenates [S1x256, S1x256] S2x256 0
  inb_S1x2x256_S1x2x256_0_0_0 : ∀ a, (![0, 0, 0] : Fin 3 → Nat) a + S1x2x256.size a ≤ S1x2x256.size a
  h_S1x2x256 : 0 < S1x2x256.numel
  shapeCasts_S1x2x256_S2x256 : S1x2x256.ShapeCasts S2x256
  shapeCasts_S2x256_S1x2x256 : S2x256.ShapeCasts S1x2x256
  inb_S64x2x256_S64x2x256_0_0_0 : ∀ a, (![0, 0, 0] : Fin 3 → Nat) a + S64x2x256.size a ≤ S64x2x256.size a
  h_S64x2x256 : 0 < S64x2x256.numel
  shapeCasts_S64x2x256_S64x2x256 : S64x2x256.ShapeCasts S64x2x256
  reduces_S64x2x256_S2x256 : S64x2x256.Reduces [0] S2x256
  slices_S2x256_o0_0_S1x256 : S2x256.Slices ![0, 0] S1x256
  shapeCasts_S1x256_S256 : S1x256.ShapeCasts S256
  slices_S2x256_o1_0_S1x256 : S2x256.Slices ![1, 0] S1x256
  inb_S1x256_S1x256_0_0 : ∀ a, (![0, 0] : Fin 2 → Nat) a + S1x256.size a ≤ S1x256.size a
  h_S1x256 : 0 < S1x256.numel
  shapeCasts_S256_S256x1 : S256.ShapeCasts S256x1
  broadcasts_S256x1_S256x1024 : S256x1.Broadcasts S256x1024
  dot_S256x128_S128x1024_S256x1024_1_0_0_1_n_n_wf : DotDims.WF S256x128 S128x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x1024.size a ≤ S64x128x1024.size a
  hwx0_0 : ∀ i : grid0.Coords, EltTy.bits .f32 = 32 ∨ (Rect.block (s := S64x128x1024) S1x128x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S5x256x128.size a ≤ S5x256x128.size a
  hwx0_1 : ∀ i : grid0.Coords, EltTy.bits .bf16 = 32 ∨ (Rect.block (s := S5x256x128) S5x256x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x1024.size a ≤ S64x256x1024.size a
  hwx0_2 : ∀ i : grid0.Coords, EltTy.bits .bf16 = 32 ∨ (Rect.block (s := S64x256x1024) S1x256x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2x256.size a ≤ S64x2x256.size a
  hwx0_3 : ∀ i : grid0.Coords, EltTy.bits .f32 = 32 ∨ (Rect.block (s := S64x2x256) S1x2x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x1024.size a ≤ S64x256x1024.size a
  hwx1_0 : ∀ i : grid1.Coords, EltTy.bits .bf16 = 32 ∨ (Rect.block (s := S64x256x1024) S1x256x1024.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x2x256.size a ≤ S64x2x256.size a
  hwx1_1 : ∀ i : grid1.Coords, EltTy.bits .f32 = 32 ∨ (Rect.block (s := S64x2x256) S64x2x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x256x1024.size a ≤ S64x256x1024.size a
  hwx1_4 : ∀ i : grid1.Coords, EltTy.bits .f32 = 32 ∨ (Rect.block (s := S64x256x1024) S1x256x1024.size (cc1_transform_4 i) (hinb1_4 i)).WholeWords (EltTy.packing .f32)

variable [Facts₀]

def dot_S256x128_S128x1024_S256x1024_1_0_0_1_n_n : DotDims S256x128 S128x1024 S256x1024 where
  lhsContracting := [1]
  rhsContracting := [0]
  lhsNonContracting := [0]
  rhsNonContracting := [1]
  lhsBatch := []
  rhsBatch := []
  wf := dot_S256x128_S128x1024_S256x1024_1_0_0_1_n_n_wf

abbrev win0_0 : Pipeline.Window sig grid0 :=
  Pipeline.Window.ofSpec (Memref.whole main_arg0) S1x128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S5x256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x256x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x2x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v2_0) S1x256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2_1) S64x2x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v5) S1x256x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S64x128x1024 : Shape := ⟨3, ![64, 128, 1024]⟩
abbrev S256x128x5 : Shape := ⟨3, ![256, 128, 5]⟩
abbrev S256 : Shape := ⟨1, ![256]⟩
abbrev S_ : Shape := ⟨0, ![]⟩
abbrev S64x128x1028 : Shape := ⟨3, ![64, 128, 1028]⟩
abbrev S256x5x128 : Shape := ⟨3, ![256, 5, 128]⟩
abbrev S256x640 : Shape := ⟨2, ![256, 640]⟩
abbrev S64x256x1024 : Shape := ⟨3, ![64, 256, 1024]⟩
abbrev S64x2x256x2 : Shape := ⟨4, ![64, 2, 256, 2]⟩
abbrev S1x128x1028 : Shape := ⟨3, ![1, 128, 1028]⟩
abbrev S1x256x512 : Shape := ⟨3, ![1, 256, 512]⟩
abbrev S1x1x256x2 : Shape := ⟨4, ![1, 1, 256, 2]⟩
abbrev S1x128x516 : Shape := ⟨3, ![1, 128, 516]⟩
abbrev S128x516 : Shape := ⟨2, ![128, 516]⟩
abbrev S128x512 : Shape := ⟨2, ![128, 512]⟩
abbrev S640x512 : Shape := ⟨2, ![640, 512]⟩
abbrev S256x512 : Shape := ⟨2, ![256, 512]⟩
abbrev S256x1 : Shape := ⟨2, ![256, 1]⟩
abbrev S256x2 : Shape := ⟨2, ![256, 2]⟩

abbrev nBuf : Space → Nat
  | .hbm => 36
  | .vmem => 13
  | .smem => 0
  | _ => 0

abbrev bufTy : (tb : Table) → Fin (tcTables nBuf tb) → BufTy
  | .hbm, ⟨0, _⟩ => ⟨S64x128x1024, .f32⟩
  | .hbm, ⟨1, _⟩ => ⟨S256x128x5, .f32⟩
  | .hbm, ⟨2, _⟩ => ⟨S256, .f32⟩
  | .hbm, ⟨3, _⟩ => ⟨S256, .f32⟩
  | .hbm, ⟨4, _⟩ => ⟨S_, .i32⟩
  | .hbm, ⟨5, _⟩ => ⟨S_, .f32⟩
  | .hbm, ⟨6, _⟩ => ⟨S64x128x1028, .f32⟩
  | .hbm, ⟨7, _⟩ => ⟨S256x5x128, .f32⟩
  | .hbm, ⟨8, _⟩ => ⟨S256x640, .f32⟩
  | .hbm, ⟨9, _⟩ => ⟨S64x256x1024, .f32⟩
  | .hbm, ⟨10, _⟩ => ⟨S64x2x256x2, .f32⟩
  | .hbm, ⟨11, _⟩ => ⟨S_, .f32⟩
  | .hbm, ⟨12, _⟩ => ⟨S256x2, .f32⟩
  | .hbm, ⟨13, _⟩ => ⟨S256x1, .f32⟩
  | .hbm, ⟨14, _⟩ => ⟨S256, .f32⟩
  | .hbm, ⟨15, _⟩ => ⟨S_, .f32⟩
  | .hbm, ⟨16, _⟩ => ⟨S256, .f32⟩
  | .hbm, ⟨17, _⟩ => ⟨S256, .f32⟩
  | .hbm, ⟨18, _⟩ => ⟨S256x1, .f32⟩
  | .hbm, ⟨19, _⟩ => ⟨S256, .f32⟩
  | .hbm, ⟨20, _⟩ => ⟨S_, .f32⟩
  | .hbm, ⟨21, _⟩ => ⟨S256, .f32⟩
  | .hbm, ⟨22, _⟩ => ⟨S256, .f32⟩
  | .hbm, ⟨23, _⟩ => ⟨S256, .f32⟩
  | .hbm, ⟨24, _⟩ => ⟨S256, .f32⟩
  | .hbm, ⟨25, _⟩ => ⟨S_, .f32⟩
  | .hbm, ⟨26, _⟩ => ⟨S256, .f32⟩
  | .hbm, ⟨27, _⟩ => ⟨S256, .f32⟩
  | .hbm, ⟨28, _⟩ => ⟨S256, .f32⟩
  | .hbm, ⟨29, _⟩ => ⟨S256, .f32⟩
  | .hbm, ⟨30, _⟩ => ⟨S256x1, .f32⟩
  | .hbm, ⟨31, _⟩ => ⟨S256, .f32⟩
  | .hbm, ⟨32, _⟩ => ⟨S256, .f32⟩
  | .hbm, ⟨33, _⟩ => ⟨S256, .f32⟩
  | .hbm, ⟨34, _⟩ => ⟨S256x1, .f32⟩
  | .hbm, ⟨35, _⟩ => ⟨S64x256x1024, .f32⟩
  | .local _ .vmem, ⟨0, _⟩ => ⟨S1x128x1028, .f32⟩
  | .local _ .vmem, ⟨1, _⟩ => ⟨S1x128x1028, .f32⟩
  | .local _ .vmem, ⟨2, _⟩ => ⟨S256x640, .f32⟩
  | .local _ .vmem, ⟨3, _⟩ => ⟨S1x256x512, .f32⟩
  | .local _ .vmem, ⟨4, _⟩ => ⟨S1x256x512, .f32⟩
  | .local _ .vmem, ⟨5, _⟩ => ⟨S1x1x256x2, .f32⟩
  | .local _ .vmem, ⟨6, _⟩ => ⟨S1x1x256x2, .f32⟩
  | .local _ .vmem, ⟨7, _⟩ => ⟨S1x256x512, .f32⟩
  | .local _ .vmem, ⟨8, _⟩ => ⟨S1x256x512, .f32⟩
  | .local _ .vmem, ⟨9, _⟩ => ⟨S256x1, .f32⟩
  | .local _ .vmem, ⟨10, _⟩ => ⟨S256x1, .f32⟩
  | .local _ .vmem, ⟨11, _⟩ => ⟨S1x256x512, .f32⟩
  | .local _ .vmem, ⟨12, _⟩ => ⟨S1x256x512, .f32⟩
  | _, _ => ⟨S64x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨2, ![64, 2], ![false, false]⟩

def k0_mult1 (i : grid0.Coords) : BitVec 32 :=
  let arg1 : BitVec 32 := BitVec.ofNat 32 (i 1).val
  let c512_i32 : BitVec 32 := 512#32
  let v0 : BitVec 32 := Scalar.muli arg1 c512_i32
  v0
def k0_off1 (i : grid0.Coords) : Fin 3 → Nat :=
  let c0 : Index := 0#32
  let c0_0 : Index := 0#32
  let arg1 : BitVec 32 := BitVec.ofNat 32 (i 1).val
  let c512_i32 : BitVec 32 := 512#32
  let v0 : BitVec 32 := Scalar.muli arg1 c512_i32
  let v1 : BitVec 32 := v0
  let v2 : Index := Scalar.indexCast v1
  ![0, 0, v2.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x128x1028 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S256x640 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x256x2 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![64, 2], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x256x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S256x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S256x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x256x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  pads_S64x128x1024_S64x128x1028_000_000_220 : S64x128x1024.Pads (![0, 0, 2] : Fin 3 → Nat) ![0, 0, 2] ![0, 0, 0] S64x128x1028
  h_S_ : 0 < S_.numel
  transposes_S256x128x5_S256x5x128_0_2_1 : S256x128x5.Transposes [0, 2, 1] S256x5x128
  shapeCasts_S256x5x128_S256x640 : S256x5x128.ShapeCasts S256x640
  h_S1x128x516 : 0 < S1x128x516.numel
  shapeCasts_S1x128x516_S128x516 : S1x128x516.ShapeCasts S128x516
  slices_S128x516_o0_0_S128x512 : S128x516.Slices ![0, 0] S128x512
  slices_S128x516_o0_1_S128x512 : S128x516.Slices ![0, 1] S128x512
  slices_S128x516_o0_2_S128x512 : S128x516.Slices ![0, 2] S128x512
  slices_S128x516_o0_3_S128x512 : S128x516.Slices ![0, 3] S128x512
  slices_S128x516_o0_4_S128x512 : S128x516.Slices ![0, 4] S128x512
  concatenates_S128x512_S128x512_S128x512_S128x512_S128x512_S640x512_d0 : Shape.Concatenates [S128x512, S128x512, S128x512, S128x512, S128x512] S640x512 0
  inb_S256x640_S256x640_0_0 : ∀ a, (![0, 0] : Fin 2 → Nat) a + S256x640.size a ≤ S256x640.size a
  h_S256x640 : 0 < S256x640.numel
  shapeCasts_S256x640_S256x640 : S256x640.ShapeCasts S256x640
  inb_S1x256x512_S1x256x512_0_0_0 : ∀ a, (![0, 0, 0] : Fin 3 → Nat) a + S1x256x512.size a ≤ S1x256x512.size a
  h_S1x256x512 : 0 < S1x256x512.numel
  shapeCasts_S1x256x512_S256x512 : S1x256x512.ShapeCasts S256x512
  shapeCasts_S256x512_S1x256x512 : S256x512.ShapeCasts S1x256x512
  reduces_S256x512_S256 : S256x512.Reduces [1] S256
  shapeCasts_S256_S256x1 : S256.ShapeCasts S256x1
  concatenates_S256x1_S256x1_S256x2_d1 : Shape.Concatenates [S256x1, S256x1] S256x2 1
  inb_S1x1x256x2_S1x1x256x2_0_0_0_0 : ∀ a, (![0, 0, 0, 0] : Fin 4 → Nat) a + S1x1x256x2.size a ≤ S1x1x256x2.size a
  h_S1x1x256x2 : 0 < S1x1x256x2.numel
  shapeCasts_S1x1x256x2_S256x2 : S1x1x256x2.ShapeCasts S256x2
  shapeCasts_S256x2_S1x1x256x2 : S256x2.ShapeCasts S1x1x256x2
  reducesTo_S64x2x256x2_S256x2_d0_1 : S64x2x256x2.ReducesTo [0, 1] S256x2
  slices_S256x2_S256x1_0_0 : S256x2.Slices ![0, 0] S256x1
  shapeCasts_S256x1_S256 : S256x1.ShapeCasts S256
  bcast_S_S256 : S_.BroadcastsInDim S256 (![] : Fin 0 → Fin S256.rank)
  slices_S256x2_S256x1_0_1 : S256x2.Slices ![0, 1] S256x1
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x512 : S256x1.Broadcasts S256x512
  dot_S256x640_S640x512_S256x512_1_0_0_1_n_n_wf : DotDims.WF S256x640 S640x512 S256x512 [1] [0] [0] [1] [] []
  hrank0 : 0 < grid0.rank
  k0_mult1_dvd : ∀ i : grid0.Coords, 512 ∣ (k0_mult1 i).toNat
  k0_off1_inb : ∀ i : grid0.Coords, ∀ a, (k0_off1 i) a + S1x128x516.size a ≤ S1x128x1028.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x1028.size a ≤ S64x128x1028.size a
  hwx0_0 : ∀ i : grid0.Coords, EltTy.bits .f32 = 32 ∨ (Rect.block (s := S64x128x1028) S1x128x1028.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x640.size a ≤ S256x640.size a
  hwx0_1 : ∀ i : grid0.Coords, EltTy.bits .f32 = 32 ∨ (Rect.block (s := S256x640) S256x640.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x512.size a ≤ S64x256x1024.size a
  hwx0_2 : ∀ i : grid0.Coords, EltTy.bits .f32 = 32 ∨ (Rect.block (s := S64x256x1024) S1x256x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x256x2.size a ≤ S64x2x256x2.size a
  hwx0_3 : ∀ i : grid0.Coords, EltTy.bits .f32 = 32 ∨ (Rect.block (s := S64x2x256x2) S1x1x256x2.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x512.size a ≤ S64x256x1024.size a
  hwx1_0 : ∀ i : grid1.Coords, EltTy.bits .f32 = 32 ∨ (Rect.block (s := S64x256x1024) S1x256x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x1.size a ≤ S256x1.size a
  hwx1_1 : ∀ i : grid1.Coords, EltTy.bits .f32 = 32 ∨ (Rect.block (s := S256x1) S256x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x1.size a ≤ S256x1.size a
  hwx1_2 : ∀ i : grid1.Coords, EltTy.bits .f32 = 32 ∨ (Rect.block (s := S256x1) S256x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x256x512.size a ≤ S64x256x1024.size a
  hwx1_3 : ∀ i : grid1.Coords, EltTy.bits .f32 = 32 ∨ (Rect.block (s := S64x256x1024) S1x256x512.size (cc1_transform_3 i) (hinb1_3 i)).WholeWords (EltTy.packing .f32)

variable [Facts₀]

def dot_S256x640_S640x512_S256x512_1_0_0_1_n_n : DotDims S256x640 S640x512 S256x512 where
  lhsContracting := [1]
  rhsContracting := [0]
  lhsNonContracting := [0]
  rhsNonContracting := [1]
  lhsBatch := []
  rhsBatch := []
  wf := dot_S256x640_S640x512_S256x512_1_0_0_1_n_n_wf

abbrev win0_0 : Pipeline.Window sig grid0 :=
  Pipeline.Window.ofSpec (Memref.whole main_v0) S1x128x1028.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S256x640.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3_0) S1x256x512.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3_1) S1x1x256x2.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v3_0) S1x256x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S256x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v23) S256x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v24) S1x256x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== Proof.Spec.lean ====
/-
  What both programs compute, as plain functions of the four argument arrays read by coordinates, on the extended reals:
  a width-5 convolution along the last axis of `x` (two zeros put before and behind each row), a rectifier, the sum and the
  sum of squares of the rectified values over the batch and the positions (one pair per output channel), and the affine map
  `y * (g * r) + (be - mean * (g * r))` with `mean = s0 / 65536`, `r = rsqrt (s1 / 65536 - mean * mean + eps)`.
  The two programs group the sums differently (five taps of 128 channels against one contraction over 640; rows of 1024
  against two tiles of 512; a batch sum against a sum over batch and tile) and associate one product differently; sums and
  products of extended reals are commutative monoids, so the groupings agree (`conv640_eq`, `tot_tiles`, `outR_eq_outK`).
-/
import Idealize.ShloMosaic.PureOps.Ideal
import Mathlib.Algebra.BigOperators.Fin

noncomputable section

open scoped BigOperators

namespace Cert.ConvBN

open Idealize.ShloMosaic

/-- The number of rectified values per channel, 64 * 1024, as the programs spell it. -/
def cnt : EReal := Ideal.ofBits .f32 0x47800000#32
/-- The variance's offset, as the programs spell it. -/
def eps : EReal := Ideal.ofBits .f32 0x3727C5AC#32

/-- Row `(b, ci)` of `x` with two zeros before and two behind, read at position `p` (zero outside `[2, 1026)`). -/
def xpad (x : Fin 64 → Fin 128 → Fin 1024 → EReal) (b : Fin 64) (ci : Fin 128) (p : ℕ) : EReal :=
  if h : 2 ≤ p ∧ p < 1026 then x b ci ⟨p - 2, by omega⟩ else 0

/-- The convolution at output channel `co` and position `t`, tap by tap: over the taps, then over the input channels. -/
def conv (xp : Fin 64 → Fin 128 → ℕ → EReal) (w : Fin 256 → Fin 128 → Fin 5 → EReal) (b : Fin 64) (co : Fin 256) (t : ℕ) : EReal :=
  ∑ k : Fin 5, ∑ ci : Fin 128, w co ci k * xp b ci (t + k.val)

/-- The same as ONE contraction over `j = 128 k + ci`, the weights given as a 256 by 640 matrix. -/
def conv640 (xp : Fin 64 → Fin 128 → ℕ → EReal) (wm : Fin 256 → Fin 640 → EReal) (b : Fin 64) (co : Fin 256) (t : ℕ) : EReal :=
  ∑ j : Fin 640, wm co j * xp b ⟨j.val % 128, Nat.mod_lt _ (by norm_num)⟩ (t + j.val / 128)

/-- The rectified convolution. -/
def act (xp : Fin 64 → Fin 128 → ℕ → EReal) (w : Fin 256 → Fin 128 → Fin 5 → EReal) (b : Fin 64) (co : Fin 256) (t : ℕ) : EReal :=
  max (conv xp w b co t) 0

/-- Column `128 k + ci` of the 640 against the pair `(k, ci)`. -/
private def e640 : Fin 5 × Fin 128 ≃ Fin 640 where
  toFun p := ⟨p.1.val * 128 + p.2.val, by have := p.1.isLt; have := p.2.isLt; omega⟩
  invFun j := (⟨j.val / 128, by have := j.isLt; omega⟩, ⟨j.val % 128, Nat.mod_lt _ (by norm_num)⟩)
  left_inv p := by
    rcases p with ⟨k, ci⟩
    have := k.isLt; have := ci.isLt
    refine Prod.ext (Fin.ext ?_) (Fin.ext ?_)
    · show (k.val * 128 + ci.val) / 128 = k.val; omega
    · show (k.val * 128 + ci.val) % 128 = ci.val; omega
  right_inv j := by
    refine Fin.ext ?_
    show j.val / 128 * 128 + j.val % 128 = j.val; omega

/-- One contraction over 640 is the five taps of 128: the matrix's column `128 k + ci` holds tap `k` of input channel `ci`. -/
theorem conv640_eq (xp : Fin 64 → Fin 128 → ℕ → EReal) (w : Fin 256 → Fin 128 → Fin 5 → EReal) (wm : Fin 256 → Fin 640 → EReal)
    (hw : ∀ (co : Fin 256) (j : Fin 640), wm co j = w co ⟨j.val % 128, Nat.mod_lt _ (by norm_num)⟩ ⟨j.val / 128, by have := j.isLt; omega⟩)
    (b : Fin 64) (co : Fin 256) (t : ℕ) : conv640 xp wm b co t = conv xp w b co t := by
  unfold conv640 conv
  rw [← Fintype.sum_prod_type']
  symm
  refine Fintype.sum_equiv e640 _ _ ?_
  rintro ⟨k, ci⟩
  have hk := k.isLt; have hci := ci.isLt
  have h1 : (k.val * 128 + ci.val) % 128 = ci.val := by omega
  have h2 : (k.val * 128 + ci.val) / 128 = k.val := by omega
  rw [hw]
  show w co ci k * xp b ci (t + k.val) =
    w co ⟨(k.val * 128 + ci.val) % 128, _⟩ ⟨(k.val * 128 + ci.val) / 128, _⟩ *
      xp b ⟨(k.val * 128 + ci.val) % 128, _⟩ (t + (k.val * 128 + ci.val) / 128)
  simp only [h1, h2]

/-- A sum over the batch and the 1024 positions. -/
def tot (f : Fin 64 → Fin 1024 → EReal) : EReal := ∑ b : Fin 64, ∑ t : Fin 1024, f b t

/-- Position `512 l + t'` of a row against the pair `(l, t')`. -/
private def e1024 : Fin 2 × Fin 512 ≃ Fin 1024 where
  toFun p := ⟨p.1.val * 512 + p.2.val, by have := p.1.isLt; have := p.2.isLt; omega⟩
  invFun j := (⟨j.val / 512, by have := j.isLt; omega⟩, ⟨j.val % 512, Nat.mod_lt _ (by norm_num)⟩)
  left_inv p := by
    rcases p with ⟨l, t'⟩
    have := l.isLt; have := t'.isLt
    refine Prod.ext (Fin.ext ?_) (Fin.ext ?_)
    · show (l.val * 512 + t'.val) / 512 = l.val; omega
    · show (l.val * 512 + t'.val) % 512 = t'.val; omega
  right_inv j := by
    refine Fin.ext ?_
    show j.val / 512 * 512 + j.val % 512 = j.val; omega

/-- Summed tile by tile — over the batch, the two tiles of a row, the 512 positions of a tile — it is the same sum. -/
theorem tot_tiles (f : Fin 64 → Fin 1024 → EReal) :
    (∑ b : Fin 64, ∑ l : Fin 2, ∑ t' : Fin 512, f b ⟨l.val * 512 + t'.val, by have := l.isLt; have := t'.isLt; omega⟩) = tot f := by
  unfold tot
  refine Finset.sum_congr rfl (fun b _ => ?_)
  rw [← Fintype.sum_prod_type']
  exact Fintype.sum_equiv e1024 _ _ (fun _ => rfl)

/-- The mean, the biased variance and the reciprocal root, from the two totals. -/
def mean (s0 : EReal) : EReal := Ideal.div s0 cnt
def var (s0 s1 : EReal) : EReal := Ideal.div s1 cnt - mean s0 * mean s0
def rstd (s0 s1 : EReal) : EReal := Ideal.rsqrt (var s0 s1 + eps)

/-- The affine map, the shift's product associated as `mean * (g * r)`. -/
def outK (y s0 s1 g be : EReal) : EReal := y * (g * rstd s0 s1) + (be - mean s0 * (g * rstd s0 s1))
/-- The scale column, and the shift column with its product associated as `(mean * g) * r`. -/
def scale (g s0 s1 : EReal) : EReal := g * rstd s0 s1
def shiftR (g be s0 s1 : EReal) : EReal := be - mean s0 * g * rstd s0 s1
/-- A value scaled and shifted. -/
def fma (y sc sh : EReal) : EReal := y * sc + sh
/-- The affine map through the two columns. -/
def outR (y s0 s1 g be : EReal) : EReal := fma y (scale g s0 s1) (shiftR g be s0 s1)

theorem outR_eq_outK (y s0 s1 g be : EReal) : outR y s0 s1 g be = outK y s0 s1 g be := by
  unfold outR outK fma scale shiftR; rw [mul_assoc]

/-- The result at `(b, co, t)`. -/
def G (x : Fin 64 → Fin 128 → Fin 1024 → EReal) (w : Fin 256 → Fin 128 → Fin 5 → EReal) (g be : Fin 256 → EReal)
    (b : Fin 64) (co : Fin 256) (t : Fin 1024) : EReal :=
  outK (act (xpad x) w b co t.val)
    (tot fun b' t' => act (xpad x) w b' co t'.val)
    (tot fun b' t' => act (xpad x) w b' co t'.val * act (xpad x) w b' co t'.val)
    (g co) (be co)

end Cert.ConvBN

end
-- ==== Proof.KConv.lean ====
/-
  The first pallas_call of the kernel's program, read as values at the extended reals: grid point `b` loads row `b` of `x`
  and the five weight slabs, pads the row by two zeros on each side, adds the five slab products, rectifies, and writes
  back the rectified row and the row's two sums. Stated here for the whole result arrays after the region, index by index.
-/
import proofs.«176252_g2000201346594626_pallaspilot1_190_2_alg».proof.Defs
import proofs.«176252_g2000201346594626_pallaspilot1_190_2_alg».proof.Proof.Gen.KernelIdeal.Frame
import proofs.«176252_g2000201346594626_pallaspilot1_190_2_alg».proof.Proof.Spec

import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws
import Idealize.ShloMosaic.Lib.Tactic

set_option maxRecDepth 16384

noncomputable section

open scoped BigOperators
open Idealize.ShloMosaic Idealize.ShloMosaic.TcCoe Idealize.SL.Sem
open Idealize.ShloMosaic.Pipeline (Dat)
open Idealize.ShloMosaic.ValueIdx

namespace Cert.KernelIdeal.Conv

open Cert.KernelIdeal Cert.KernelIdeal.Gen

/-! ## One slab product at an index -/

-- the dot record's operand indices at (co, t) and contraction coordinate ci, axis by axis
private theorem lhs_dot_0 (co : Fin 256) (t : Fin 1024) (k : dot_S256x128_S128x1024_S256x1024_1_0_0_1_n_n.contr.Idx) :
    ((dot_S256x128_S128x1024_S256x1024_1_0_0_1_n_n.lhsIdx (ix2 co t) k) 0).val = co.val := by
  simp [DotDims.lhsIdx, dot_S256x128_S128x1024_S256x1024_1_0_0_1_n_n]; rfl

private theorem lhs_dot_1 (co : Fin 256) (t : Fin 1024) (k : dot_S256x128_S128x1024_S256x1024_1_0_0_1_n_n.contr.Idx) :
    ((dot_S256x128_S128x1024_S256x1024_1_0_0_1_n_n.lhsIdx (ix2 co t) k) 1).val = (k ⟨0, by decide⟩).val :=
  dot_S256x128_S128x1024_S256x1024_1_0_0_1_n_n.lhsIdx_val_of_single (cl := 1) rfl (ix2 co t) k

private theorem rhs_dot_0 (co : Fin 256) (t : Fin 1024) (k : dot_S256x128_S128x1024_S256x1024_1_0_0_1_n_n.contr.Idx) :
    ((dot_S256x128_S128x1024_S256x1024_1_0_0_1_n_n.rhsIdx (ix2 co t) k) 0).val = (k ⟨0, by decide⟩).val :=
  dot_S256x128_S128x1024_S256x1024_1_0_0_1_n_n.rhsIdx_val_of_single (cr := 0) rfl (ix2 co t) k

private theorem rhs_dot_1 (co : Fin 256) (t : Fin 1024) (k : dot_S256x128_S128x1024_S256x1024_1_0_0_1_n_n.contr.Idx) :
    ((dot_S256x128_S128x1024_S256x1024_1_0_0_1_n_n.rhsIdx (ix2 co t) k) 1).val = t.val := by
  simp [DotDims.rhsIdx, dot_S256x128_S128x1024_S256x1024_1_0_0_1_n_n]; rfl

/-- A slab product into the zero accumulator, read at (co, t): the sum over the 128 input channels. -/
private theorem slab_apply (A : FVec Ideal S256x128 .bf16) (X : FVec Ideal S128x1024 .bf16) (co : Fin 256) (t : Fin 1024) :
    matmul dot_S256x128_S128x1024_S256x1024_1_0_0_1_n_n none A X (constant (F := Ideal) S256x1024 .f32 0x00000000#32) (ix2 co t)
      = ∑ ci : Fin 128, A (ix2 co ci) * X (ix2 ci t) := by
  show FloatOps.matmul _ none A X _ (ix2 co t) = _
  rw [Ideal.matmul_constant_zero_apply,
    ← Equiv.sum_comp (contrEquiv1 dot_S256x128_S128x1024_S256x1024_1_0_0_1_n_n 128 rfl rfl).symm]
  refine Finset.sum_congr rfl fun ci _ => ?_
  have hk := contrEquiv1_symm_val dot_S256x128_S128x1024_S256x1024_1_0_0_1_n_n 128 rfl rfl ci
  have l : dot_S256x128_S128x1024_S256x1024_1_0_0_1_n_n.lhsIdx (ix2 co t)
      ((contrEquiv1 dot_S256x128_S128x1024_S256x1024_1_0_0_1_n_n 128 rfl rfl).symm ci) = ix2 co ci := by
    funext ax; apply Fin.ext
    match ax with
    | ⟨0, _⟩ => exact lhs_dot_0 _ _ _
    | ⟨1, _⟩ => exact (lhs_dot_1 _ _ _).trans hk
  have r : dot_S256x128_S128x1024_S256x1024_1_0_0_1_n_n.rhsIdx (ix2 co t)
      ((contrEquiv1 dot_S256x128_S128x1024_S256x1024_1_0_0_1_n_n 128 rfl rfl).symm ci) = ix2 ci t := by
    funext ax; apply Fin.ext
    match ax with
    | ⟨0, _⟩ => exact (rhs_dot_0 _ _ _).trans hk
    | ⟨1, _⟩ => exact rhs_dot_1 _ _ _
  rw [l, r]

/-! ## The padded block at an index -/

/-- A [128,1024] matrix between two [128,2] matrices of zeros, read at (ci, p): the matrix at column p - 2 inside
    [2, 1026), zero outside. -/
private theorem pad_apply (Z : FVec Ideal S128x2 .bf16) (R : FVec Ideal S128x1024 .bf16) (hZ : ∀ i, Z i = 0)
    (h : Shape.Concatenates (([⟨S128x2, Z⟩, ⟨S128x1024, R⟩, ⟨S128x2, Z⟩] : List ((s : Shape) × (s.Idx → EReal))).map (·.1)) S128x1028 1)
    (ci : Fin 128) (p : Fin 1028) :
    concatenate S128x1028 1 [⟨S128x2, Z⟩, ⟨S128x1024, R⟩, ⟨S128x2, Z⟩] h (ix2 ci p)
      = if hp : 2 ≤ p.val ∧ p.val < 1026 then R (ix2 ci ⟨p.val - 2, by omega⟩) else 0 := by
  by_cases h0 : p.val < 2
  · rw [dif_neg (by omega)]
    refine (concatenate_apply_piece (1 : Fin 2) _ h (ix2 ci p) 0 (by show (0 : ℕ) < 3; omega) S128x2 Z rfl rfl 0 rfl
      (ix2 ci ⟨p.val, h0⟩) (fun b hb => ?_) ?_).trans (hZ _)
    · match b with
      | ⟨0, _⟩ => rfl
      | ⟨1, _⟩ => exact absurd rfl hb
    · show 0 + p.val = p.val; omega
  · by_cases h1 : p.val < 1026
    · rw [dif_pos ⟨by omega, h1⟩]
      refine concatenate_apply_piece (1 : Fin 2) _ h (ix2 ci p) 1 (by show (1 : ℕ) < 3; omega) S128x1024 R rfl rfl 2 rfl
        (ix2 ci ⟨p.val - 2, by omega⟩) (fun b hb => ?_) ?_
      · match b with
        | ⟨0, _⟩ => rfl
        | ⟨1, _⟩ => exact absurd rfl hb
      · show 2 + (p.val - 2) = p.val; omega
    · rw [dif_neg (by omega)]
      refine (concatenate_apply_piece (1 : Fin 2) _ h (ix2 ci p) 2 (by show (2 : ℕ) < 3; omega) S128x2 Z rfl rfl 1026 rfl
        (ix2 ci ⟨p.val - 1026, by have := p.isLt; omega⟩) (fun b hb => ?_) ?_).trans (hZ _)
      · match b with
        | ⟨0, _⟩ => rfl
        | ⟨1, _⟩ => exact absurd rfl hb
      · show 1026 + (p.val - 1026) = p.val; omega

/-! ## The rectified sum of the five slab products at an index -/

/-- Row `ci` of a loaded block with two zeros before and two behind, read at position `p`. -/
private def xrow (x0 : Vec Ideal S1x128x1024 .f32) (ci : Fin 128) (p : ℕ) : EReal :=
  if h : 2 ≤ p ∧ p < 1026 then x0 (ix3 0 ci ⟨p - 2, by omega⟩) else 0

/-- One tap: a weight slab's row `co` against the padded rows at position `p`. -/
private def tap (x0 : Vec Ideal S1x128x1024 .f32) (w : Vec Ideal S1x256x128 .bf16) (co : Fin 256) (p : ℕ) : EReal :=
  ∑ ci : Fin 128, w (ix3 0 co ci) * xrow x0 ci p

/-- The loaded block as a [128,1028] matrix: narrowed, two columns of zeros on each side. -/
private def padded (x0 : Vec Ideal S1x128x1024 .f32) : FVec Ideal S128x1028 .bf16 :=
  concatenate S128x1028 1
    [⟨S128x2, broadcast S128x2 (Scalar.ofBits (F := Ideal) .bf16 0x0000#16)⟩,
     ⟨S128x1024, truncf .bf16 (shapeCast S128x1024 x0 shapeCasts_S1x128x1024_S128x1024) bitsLt_bf16_f32⟩,
     ⟨S128x2, broadcast S128x2 (Scalar.ofBits (F := Ideal) .bf16 0x0000#16)⟩]
    concatenates_S128x2_S128x1024_S128x2_S128x1028_d1

private theorem padded_apply (x0 : Vec Ideal S1x128x1024 .f32) (ci : Fin 128) (p : Fin 1028) :
    padded x0 (ix2 ci p) = xrow x0 ci p.val := by
  unfold padded xrow
  refine (pad_apply _ _ (fun _ => Ideal.ofBits_zero_bf16) _ ci p).trans ?_
  by_cases hp : 2 ≤ p.val ∧ p.val < 1026
  · rw [dif_pos hp, dif_pos hp]
    exact shapeCast_1ab_ab_apply x0 _ ci _
  · rw [dif_neg hp, dif_neg hp]

/-- One slab product over the padded block cut from column `o`, as the payload spells it. -/
private def slabAt (x0 : Vec Ideal S1x128x1024 .f32) (w : Vec Ideal S1x256x128 .bf16) (o : ℕ)
    (hs : S128x1028.Slices ![0, o] S128x1024) : FVec Ideal S256x1024 .f32 :=
  matmul dot_S256x128_S128x1024_S256x1024_1_0_0_1_n_n none
    (shapeCast S256x128 w shapeCasts_S1x256x128_S256x128 : FVec Ideal S256x128 .bf16)
    (extractStridedSlice S128x1024 ![0, o] (padded x0) hs)
    (constant (F := Ideal) S256x1024 .f32 0x00000000#32)

private theorem slabAt_apply (x0 : Vec Ideal S1x128x1024 .f32) (w : Vec Ideal S1x256x128 .bf16) (o : ℕ)
    (hs : S128x1028.Slices ![0, o] S128x1024) (co : Fin 256) (t : Fin 1024) :
    slabAt x0 w o hs (ix2 co t) = tap x0 w co (t.val + o) := by
  unfold slabAt tap
  refine (slab_apply _ _ co t).trans (Finset.sum_congr rfl fun ci _ => ?_)
  rw [shapeCast_1ab_ab_apply, slice2_axis1_eq, padded_apply]
  show _ * xrow x0 ci (o + t.val) = _
  rw [Nat.add_comm]

private theorem pay3_apply (x0 : Vec Ideal S1x128x1024 .f32) (w0 w1 w2 w3 w4 : Vec Ideal S1x256x128 .bf16)
    (co : Fin 256) (t : Fin 1024) :
    k0_pay3 x0 w0 w1 w2 w3 w4 (ix2 co t)
      = max (tap x0 w0 co (t.val + 0) + tap x0 w1 co (t.val + 1) + tap x0 w2 co (t.val + 2)
          + tap x0 w3 co (t.val + 3) + tap x0 w4 co (t.val + 4)) 0 := by
  have e : k0_pay3 x0 w0 w1 w2 w3 w4 (ix2 co t)
      = max (slabAt x0 w0 0 slices_S128x1028_o0_0_S128x1024 (ix2 co t)
          + slabAt x0 w1 1 slices_S128x1028_o0_1_S128x1024 (ix2 co t)
          + slabAt x0 w2 2 slices_S128x1028_o0_2_S128x1024 (ix2 co t)
          + slabAt x0 w3 3 slices_S128x1028_o0_3_S128x1024 (ix2 co t)
          + slabAt x0 w4 4 slices_S128x1028_o0_4_S128x1024 (ix2 co t)) (Ideal.ofBits .f32 0x00000000#32) := rfl
  rw [e, slabAt_apply, slabAt_apply, slabAt_apply, slabAt_apply, slabAt_apply, Ideal.ofBits_zero_f32]

/-! ## The row sums and the stored tiles at an index -/

/-- The sum over the 1024 positions of a [256,1024] tile, read at row `co`. -/
private theorem rowsum_apply (v : FVec Ideal S256x1024 .f32) (h : S256x1024.Reduces [1] S256) (hφ : FKind.Formats .f32)
    (hacc : (0x00000000#32 : BitVec 32) = FKind.add.neutral .f32 hφ) (co : Fin 256) :
    multiReduction .add [1] S256 v 0x00000000#32 h hφ hacc (ix1 co) = ∑ t : Fin 1024, v (ix2 co t) := by
  refine (Ideal.multiReduction_add_single v _ h hφ hacc (ix1 co)).trans ?_
  show ∑ t : Fin 1024, v (h.lift (ix1 co) t) = _
  refine Finset.sum_congr rfl fun t _ => congrArg v ?_
  funext a; apply Fin.ext
  match a with
  | ⟨0, _⟩ => rfl
  | ⟨1, _⟩ => rfl

/-- The two row sums as the payload spells them: of the tile, and of its squares. -/
private def sum0 (v30 : FVec Ideal S256x1024 .f32) : FVec Ideal S256 .f32 :=
  multiReduction .add [1] S256 v30 0x00000000#32 reduces_S256x1024_S256 (.inl rfl) rfl
private def sum1 (v30 : FVec Ideal S256x1024 .f32) : FVec Ideal S256 .f32 :=
  multiReduction .add [1] S256 (mulf v30 v30) 0x00000000#32 reduces_S256x1024_S256 (.inl rfl) rfl

/-- The stacked pair of row sums. -/
private def stacked (v30 : FVec Ideal S256x1024 .f32) : FVec Ideal S2x256 .f32 :=
  concatenate S2x256 0 [⟨S1x256, shapeCast S1x256 (sum0 v30) shapeCasts_S256_S1x256⟩,
    ⟨S1x256, shapeCast S1x256 (sum1 v30) shapeCasts_S256_S1x256⟩] concatenates_S1x256_S1x256_S2x256_d0

private theorem stacked_apply0 (v30 : FVec Ideal S256x1024 .f32) (co : Fin 256) :
    stacked v30 (ix2 0 co) = ∑ t : Fin 1024, v30 (ix2 co t) := by
  unfold stacked
  refine (concatenate_pair_apply_left (t := S2x256) (s₁ := S1x256) (s₂ := S1x256) (0 : Fin 2) _ _ _ (ix2 (0 : Fin 2) co) rfl (ix2 (0 : Fin 1) co) (fun b => ?_)).trans ?_
  · match b with
    | ⟨0, _⟩ => rfl
    | ⟨1, _⟩ => rfl
  · rw [shapeCast_a_1a_apply]
    exact rowsum_apply v30 _ _ _ co

private theorem stacked_apply1 (v30 : FVec Ideal S256x1024 .f32) (co : Fin 256) :
    stacked v30 (ix2 1 co) = ∑ t : Fin 1024, v30 (ix2 co t) * v30 (ix2 co t) := by
  unfold stacked
  refine (concatenate_pair_apply_right (t := S2x256) (s₁ := S1x256) (s₂ := S1x256) (0 : Fin 2) _ _ _ (ix2 (1 : Fin 2) co) rfl rfl (ix2 (0 : Fin 1) co) (fun b hb => ?_) ?_).trans ?_
  · match b with
    | ⟨0, _⟩ => exact absurd rfl hb
    | ⟨1, _⟩ => rfl
  · rfl
  · rw [shapeCast_a_1a_apply]
    exact rowsum_apply (mulf v30 v30) _ _ _ co

private theorem pay2_eq (v30 : FVec Ideal S256x1024 .f32) :
    k0_pay2 v30 = shapeCast S1x2x256 (stacked v30) shapeCasts_S2x256_S1x2x256 := rfl

private theorem pay2_apply0 (v30 : FVec Ideal S256x1024 .f32) (u : Fin 1) (co : Fin 256) :
    k0_pay2 v30 (ix3 u 0 co) = ∑ t : Fin 1024, v30 (ix2 co t) := by
  rw [pay2_eq, shapeCast_ab_1ab_apply, stacked_apply0]

private theorem pay2_apply1 (v30 : FVec Ideal S256x1024 .f32) (u : Fin 1) (co : Fin 256) :
    k0_pay2 v30 (ix3 u 1 co) = ∑ t : Fin 1024, v30 (ix2 co t) * v30 (ix2 co t) := by
  rw [pay2_eq, shapeCast_ab_1ab_apply, stacked_apply1]

/-- The stored rectified tile: narrowing is the identity on the extended reals, and the leading unit axis is added. -/
private theorem pay14_apply (x0 : Vec Ideal S1x128x1024 .f32) (w0 w1 w2 w3 w4 : Vec Ideal S1x256x128 .bf16)
    (u : Fin 1) (co : Fin 256) (t : Fin 1024) :
    k0_pay1 (k0_pay4 x0 w0 w1 w2 w3 w4) (ix3 u co t) = k0_pay3 x0 w0 w1 w2 w3 w4 (ix2 co t) := by
  have e : k0_pay1 (k0_pay4 x0 w0 w1 w2 w3 w4)
      = shapeCast S1x256x1024 (truncf .bf16 (k0_pay3 x0 w0 w1 w2 w3 w4) bitsLt_bf16_f32 : FVec Ideal S256x1024 .bf16)
          shapeCasts_S256x1024_S1x256x1024 := rfl
  rw [e, shapeCast_ab_1ab_apply]
  rfl

-- the TensorCore's buffer contents when the region is entered: a parameter, as in the region's proof data
variable (V : (c : Dev nD) → (b : Ref sig .tc) → Buf (Elt Ideal) ((c : Thread nD τ).loc b))

/-- `x` as the region finds it, by coordinates. -/
def xin (c : Dev nD) : Fin 64 → Fin 128 → Fin 1024 → EReal :=
  fun b ci t => (V c main_arg0 : S64x128x1024.Idx → EReal) (ix3 b ci t)
/-- The weights as the region finds them — laid out [tap, out channel, in channel] —, read as `w co ci k`. -/
def win (c : Dev nD) : Fin 256 → Fin 128 → Fin 5 → EReal :=
  fun co ci k => (V c main_v1 : S5x256x128.Idx → EReal) (ix3 k co ci)
/-- The rectified convolution of what the region finds. -/
def actK (c : Dev nD) (b : Fin 64) (co : Fin 256) (t : Fin 1024) : EReal :=
  ConvBN.act (ConvBN.xpad (xin V c)) (win V c) b co t.val

/-! ## The blocks the grid point reads -/

/-- The printed index maps over the grid: point `t` takes row `t` of `x` and of both results, and the whole weight array. -/
private theorem idx_facts : ∀ t : Fin cfg0.N,
    win0_0.index t (0 : Fin 3) = t.val ∧ win0_0.index t (1 : Fin 3) = 0 ∧ win0_0.index t (2 : Fin 3) = 0
    ∧ win0_1.index t (0 : Fin 3) = 0 ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0 :=
  (by decide +kernel : ∀ t : Fin grid0.N, _)

/-- The first window's block at point `t` is row `t` of `x`. -/
private theorem xblk_apply (c : Dev nD) (t : Fin cfg0.N) (u : Fin 1) (ci : Fin 128) (p : Fin 1024) (b : Fin 64) (hb : b.val = t.val) :
    (iblk0 V c 0 t : Vec Ideal S1x128x1024 .f32) (ix3 u ci p) = xin V c b ci p := by
  obtain ⟨e0, e1, e2, -⟩ := idx_facts t
  unfold iblk0 xin
  rw [View.read_apply]
  show V c main_arg0 _ = V c main_arg0 _
  congr 1
  funext a; apply Fin.ext
  have hu : u.val = 0 := by omega
  match a with
  | ⟨0, _⟩ => show win0_0.index t (0 : Fin 3) * 1 + 1 * u.val = b.val; rw [e0, hb, hu]; omega
  | ⟨1, _⟩ => show win0_0.index t (1 : Fin 3) * 128 + 1 * ci.val = ci.val; rw [e1]; omega
  | ⟨2, _⟩ => show win0_0.index t (2 : Fin 3) * 1024 + 1 * p.val = p.val; rw [e2]; omega

/-- The second window's block at any point is the whole weight array. -/
private theorem wblk_apply (c : Dev nD) (t : Fin cfg0.N) (k : Fin 5) (co : Fin 256) (ci : Fin 128) :
    (iblk0 V c 1 t : Vec Ideal S5x256x128 .bf16) (ix3 k co ci) = win V c co ci k := by
  obtain ⟨-, -, -, e0, e1, e2, -⟩ := idx_facts t
  unfold iblk0 win
  rw [View.read_apply]
  show V c main_v1 _ = V c main_v1 _
  congr 1
  funext a; apply Fin.ext
  match a with
  | ⟨0, _⟩ => show win0_1.index t (0 : Fin 3) * 5 + 1 * k.val = k.val; rw [e0]; omega
  | ⟨1, _⟩ => show win0_1.index t (1 : Fin 3) * 256 + 1 * co.val = co.val; rw [e1]; omega
  | ⟨2, _⟩ => show win0_1.index t (2 : Fin 3) * 128 + 1 * ci.val = ci.val; rw [e2]; omega

/-! ## The payload of blocks that are rows of the arrays -/

/-- The padded row of a block that is row `b` of `x` is the specification's padded row. -/
private theorem xrow_eq (X0 : Vec Ideal S1x128x1024 .f32) (x : Fin 64 → Fin 128 → Fin 1024 → EReal) (b : Fin 64)
    (hX : ∀ (ci : Fin 128) (p : Fin 1024), X0 (ix3 0 ci p) = x b ci p) (ci : Fin 128) (q : ℕ) :
    xrow X0 ci q = ConvBN.xpad x b ci q := by
  unfold xrow ConvBN.xpad
  by_cases h : 2 ≤ q ∧ q < 1026
  · rw [dif_pos h, dif_pos h]; exact hX _ _
  · rw [dif_neg h, dif_neg h]

/-- One tap of such blocks is the specification's inner sum at tap `k`. -/
private theorem tap_eq (X0 : Vec Ideal S1x128x1024 .f32) (Wk : Vec Ideal S1x256x128 .bf16)
    (x : Fin 64 → Fin 128 → Fin 1024 → EReal) (w : Fin 256 → Fin 128 → Fin 5 → EReal) (b : Fin 64) (k : Fin 5)
    (hX : ∀ (ci : Fin 128) (p : Fin 1024), X0 (ix3 0 ci p) = x b ci p)
    (hW : ∀ (co : Fin 256) (ci : Fin 128), Wk (ix3 0 co ci) = w co ci k) (co : Fin 256) (q : ℕ) :
    tap X0 Wk co q = ∑ ci : Fin 128, w co ci k * ConvBN.xpad x b ci q := by
  unfold tap
  exact Finset.sum_congr rfl fun ci _ => by rw [hW, xrow_eq X0 x b hX]

/-- So the rectified sum of the five taps is the specification's rectified convolution of row `b`. -/
private theorem pay3_eq_act (X0 : Vec Ideal S1x128x1024 .f32) (W0 W1 W2 W3 W4 : Vec Ideal S1x256x128 .bf16)
    (x : Fin 64 → Fin 128 → Fin 1024 → EReal) (w : Fin 256 → Fin 128 → Fin 5 → EReal) (b : Fin 64)
    (hX : ∀ (ci : Fin 128) (p : Fin 1024), X0 (ix3 0 ci p) = x b ci p)
    (hW0 : ∀ (co : Fin 256) (ci : Fin 128), W0 (ix3 0 co ci) = w co ci 0)
    (hW1 : ∀ (co : Fin 256) (ci : Fin 128), W1 (ix3 0 co ci) = w co ci 1)
    (hW2 : ∀ (co : Fin 256) (ci : Fin 128), W2 (ix3 0 co ci) = w co ci 2)
    (hW3 : ∀ (co : Fin 256) (ci : Fin 128), W3 (ix3 0 co ci) = w co ci 3)
    (hW4 : ∀ (co : Fin 256) (ci : Fin 128), W4 (ix3 0 co ci) = w co ci 4)
    (co : Fin 256) (p : Fin 1024) :
    k0_pay3 X0 W0 W1 W2 W3 W4 (ix2 co p) = ConvBN.act (ConvBN.xpad x) w b co p.val := by
  rw [pay3_apply, tap_eq X0 W0 x w b 0 hX hW0, tap_eq X0 W1 x w b 1 hX hW1, tap_eq X0 W2 x w b 2 hX hW2,
    tap_eq X0 W3 x w b 3 hX hW3, tap_eq X0 W4 x w b 4 hX hW4]
  unfold ConvBN.act ConvBN.conv
  rw [Fin.sum_univ_five]
  rfl

/-! ## What a grid point writes back -/

private theorem hz3 : (![0, 0, 0] : Fin 3 → Nat) = fun _ => 0 := funext fun a => by fin_cases a <;> rfl

/-- The row of `x` that point `t` works on. -/
private def rowOf (t : Fin cfg0.N) : Fin 64 := ⟨t.val, by have hN : cfg0.N = 64 := N_0; have := t.isLt; omega⟩

-- the blocks the body loads at point `t`, named at their literal types
private abbrev xB (c : Dev nD) (t : Fin cfg0.N) : Vec Ideal S1x128x1024 .f32 := View.ld (iblk0 V c 0 t) r0_0
private abbrev wB0 (c : Dev nD) (t : Fin cfg0.N) : Vec Ideal S1x256x128 .bf16 := View.ld (iblk0 V c 1 t) r0_1
private abbrev wB1 (c : Dev nD) (t : Fin cfg0.N) : Vec Ideal S1x256x128 .bf16 := View.ld (iblk0 V c 1 t) r0_2
private abbrev wB2 (c : Dev nD) (t : Fin cfg0.N) : Vec Ideal S1x256x128 .bf16 := View.ld (iblk0 V c 1 t) r0_3
private abbrev wB3 (c : Dev nD) (t : Fin cfg0.N) : Vec Ideal S1x256x128 .bf16 := View.ld (iblk0 V c 1 t) r0_4
private abbrev wB4 (c : Dev nD) (t : Fin cfg0.N) : Vec Ideal S1x256x128 .bf16 := View.ld (iblk0 V c 1 t) r0_5

private theorem xB_apply (c : Dev nD) (t : Fin cfg0.N) (ci : Fin 128) (p : Fin 1024) :
    xB V c t (ix3 0 ci p) = xin V c (rowOf t) ci p :=
  (congrFun (View.ld_unit_zero (S := S1x128x1024) hz3 _ (iblk0 V c 0 t : Vec Ideal S1x128x1024 .f32)) (ix3 0 ci p)).trans
    (xblk_apply V c t 0 ci p (rowOf t) rfl)

/-- Slab `o` of a weight block, loaded through its unit rectangle, read at (0, co, ci). -/
private theorem slab_ld (x1 : Vec Ideal S5x256x128 .bf16) (o : ℕ) (ho : o < 5)
    (inb : ∀ a, (![o, 0, 0] : Fin 3 → ℕ) a + S1x256x128.size a ≤ S5x256x128.size a)
    (u : Fin 1) (co : Fin 256) (ci : Fin 128) :
    View.ld x1 (Rect.unit (s := S5x256x128) ![o, 0, 0] S1x256x128.size inb) (ix3 u co ci) = x1 (ix3 ⟨o, ho⟩ co ci) := by
  show x1 _ = x1 _
  congr 1
  funext a; apply Fin.ext
  have hu : u.val = 0 := by omega
  match a with
  | ⟨0, _⟩ => show o + 1 * u.val = o; omega
  | ⟨1, _⟩ => show 0 + 1 * co.val = co.val; omega
  | ⟨2, _⟩ => show 0 + 1 * ci.val = ci.val; omega

private theorem wB0_apply (c : Dev nD) (t : Fin cfg0.N) (co : Fin 256) (ci : Fin 128) : wB0 V c t (ix3 0 co ci) = win V c co ci 0 :=
  (slab_ld (iblk0 V c 1 t : Vec Ideal S5x256x128 .bf16) 0 (by omega) _ 0 co ci).trans (wblk_apply V c t 0 co ci)
private theorem wB1_apply (c : Dev nD) (t : Fin cfg0.N) (co : Fin 256) (ci : Fin 128) : wB1 V c t (ix3 0 co ci) = win V c co ci 1 :=
  (slab_ld (iblk0 V c 1 t : Vec Ideal S5x256x128 .bf16) 1 (by omega) _ 0 co ci).trans (wblk_apply V c t 1 co ci)
private theorem wB2_apply (c : Dev nD) (t : Fin cfg0.N) (co : Fin 256) (ci : Fin 128) : wB2 V c t (ix3 0 co ci) = win V c co ci 2 :=
  (slab_ld (iblk0 V c 1 t : Vec Ideal S5x256x128 .bf16) 2 (by omega) _ 0 co ci).trans (wblk_apply V c t 2 co ci)
private theorem wB3_apply (c : Dev nD) (t : Fin cfg0.N) (co : Fin 256) (ci : Fin 128) : wB3 V c t (ix3 0 co ci) = win V c co ci 3 :=
  (slab_ld (iblk0 V c 1 t : Vec Ideal S5x256x128 .bf16) 3 (by omega) _ 0 co ci).trans (wblk_apply V c t 3 co ci)
private theorem wB4_apply (c : Dev nD) (t : Fin cfg0.N) (co : Fin 256) (ci : Fin 128) : wB4 V c t (ix3 0 co ci) = win V c co ci 4 :=
  (slab_ld (iblk0 V c 1 t : Vec Ideal S5x256x128 .bf16) 4 (by omega) _ 0 co ci).trans (wblk_apply V c t 4 co ci)

/-- The body's rectified tile at point `t` is the rectified convolution of row `t`. -/
private theorem tile_apply (c : Dev nD) (t : Fin cfg0.N) (co : Fin 256) (p : Fin 1024) :
    k0_pay3 (xB V c t) (wB0 V c t) (wB1 V c t) (wB2 V c t) (wB3 V c t) (wB4 V c t) (ix2 co p) = actK V c (rowOf t) co p :=
  pay3_eq_act (xB V c t) (wB0 V c t) (wB1 V c t) (wB2 V c t) (wB3 V c t) (wB4 V c t) (xin V c) (win V c) (rowOf t)
    (xB_apply V c t) (wB0_apply V c t) (wB1_apply V c t) (wB2_apply V c t) (wB3_apply V c t) (wB4_apply V c t) co p

/-- What the first result array ends holding: the rectified convolution, index by index. -/
private def G2 (c : Dev nD) : S64x256x1024.Idx → EReal := fun i => actK V c (i 0) (i 1) (i 2)

/-- Point `t` writes back row `t` of it. -/
private theorem flushed2_eq (c : Dev nD) (t : Fin cfg0.N) :
    (dat0 V c).flushed 2 t = ((cfg0.win 2).blk t).view.read (Elt Ideal) (G2 V c) := by
  show (cfg0.win 2).cut (grid0.coords t) ((dat0 V c).after 2 t) = _
  rw [after0_2]
  unfold out0_2
  rw [View.canon_unit_zero hz3]
  funext j
  obtain ⟨u, co, p, rfl⟩ : ∃ (u : Fin 1) (co : Fin 256) (p : Fin 1024), j = ix3 u co p := ⟨j 0, j 1, j 2, eq_ix3 j⟩
  obtain ⟨-, -, -, -, -, -, e0, e1, e2, -⟩ := idx_facts t
  have hemb : ((cfg0.win 2).blk t).view.emb (ix3 u co p) = (ix3 (rowOf t) co p : S64x256x1024.Idx) := by
    funext a; apply Fin.ext
    have hu : u.val = 0 := by omega
    match a with
    | ⟨0, _⟩ => show win0_2.index t (0 : Fin 3) * 1 + 1 * u.val = t.val; rw [e0, hu]; omega
    | ⟨1, _⟩ => show win0_2.index t (1 : Fin 3) * 256 + 1 * co.val = co.val; rw [e1]; omega
    | ⟨2, _⟩ => show win0_2.index t (2 : Fin 3) * 1024 + 1 * p.val = p.val; rw [e2]; omega
  show k0_pay1 (k0_pay4 (xB V c t) (wB0 V c t) (wB1 V c t) (wB2 V c t) (wB3 V c t) (wB4 V c t)) (ix3 u co p)
    = G2 V c (((cfg0.win 2).blk t).view.emb (ix3 u co p))
  rw [hemb]
  exact (pay14_apply (xB V c t) (wB0 V c t) (wB1 V c t) (wB2 V c t) (wB3 V c t) (wB4 V c t) u co p).trans
    (tile_apply V c t co p)

/-- What the second result array ends holding: each row's sum at 0, its sum of squares at 1. -/
private def G3 (c : Dev nD) : S64x2x256.Idx → EReal := fun i =>
  if (i 1).val = 0 then ∑ t : Fin 1024, actK V c (i 0) (i 2) t
  else ∑ t : Fin 1024, actK V c (i 0) (i 2) t * actK V c (i 0) (i 2) t

/-- Point `t` writes back row `t` of it. -/
private theorem flushed3_eq (c : Dev nD) (t : Fin cfg0.N) :
    (dat0 V c).flushed 3 t = ((cfg0.win 3).blk t).view.read (Elt Ideal) (G3 V c) := by
  show (cfg0.win 3).cut (grid0.coords t) ((dat0 V c).after 3 t) = _
  rw [after0_3]
  unfold out0_3
  rw [View.canon_unit_zero hz3]
  funext j
  obtain ⟨u, s, co, rfl⟩ : ∃ (u : Fin 1) (s : Fin 2) (co : Fin 256), j = ix3 u s co := ⟨j 0, j 1, j 2, eq_ix3 j⟩
  obtain ⟨-, -, -, -, -, -, -, -, -, e0, e1, e2⟩ := idx_facts t
  have hemb : ((cfg0.win 3).blk t).view.emb (ix3 u s co) = (ix3 (rowOf t) s co : S64x2x256.Idx) := by
    funext a; apply Fin.ext
    have hu : u.val = 0 := by omega
    match a with
    | ⟨0, _⟩ => show win0_3.index t (0 : Fin 3) * 1 + 1 * u.val = t.val; rw [e0, hu]; omega
    | ⟨1, _⟩ => show win0_3.index t (1 : Fin 3) * 2 + 1 * s.val = s.val; rw [e1]; omega
    | ⟨2, _⟩ => show win0_3.index t (2 : Fin 3) * 256 + 1 * co.val = co.val; rw [e2]; omega
  show k0_pay2 (k0_pay3 (xB V c t) (wB0 V c t) (wB1 V c t) (wB2 V c t) (wB3 V c t) (wB4 V c t)) (ix3 u s co)
    = G3 V c (((cfg0.win 3).blk t).view.emb (ix3 u s co))
  rw [hemb]
  by_cases hs : s.val = 0
  · obtain rfl : s = 0 := Fin.ext hs
    refine (pay2_apply0 _ u co).trans ?_
    refine Eq.trans ?_ (if_pos rfl).symm
    exact Finset.sum_congr rfl fun p _ => tile_apply V c t co p
  · obtain rfl : s = 1 := Fin.ext (by show s.val = 1; have := s.isLt; omega)
    refine (pay2_apply1 _ u co).trans ?_
    refine Eq.trans ?_ (if_neg (show ¬ ((1 : Fin 2).val = 0) by decide)).symm
    exact Finset.sum_congr rfl fun p _ => by rw [tile_apply V c t co p]

/-! ## The blocks cover the arrays -/

private theorem mem_blk2 (t : Fin cfg0.N) (i : S64x256x1024.Idx) :
    i ∈ ((cfg0.win 2).blk t).view.set ↔ ∀ a : Fin 3, win0_2.index t a * S1x256x1024.size a ≤ (i a).val
      ∧ (i a).val < win0_2.index t a * S1x256x1024.size a + S1x256x1024.size a := by
  show i ∈ ((View.whole main_v2_0).slice (win0_2.rect t)).set ↔ _
  rw [View.set_slice_whole, Rect.mem_set_unit]
  exact Iff.rfl

private theorem mem_blk3 (t : Fin cfg0.N) (i : S64x2x256.Idx) :
    i ∈ ((cfg0.win 3).blk t).view.set ↔ ∀ a : Fin 3, win0_3.index t a * S1x2x256.size a ≤ (i a).val
      ∧ (i a).val < win0_3.index t a * S1x2x256.size a + S1x2x256.size a := by
  show i ∈ ((View.whole main_v2_1).slice (win0_3.rect t)).set ↔ _
  rw [View.set_slice_whole, Rect.mem_set_unit]
  exact Iff.rfl

/-- Row `b` of the first result array is in point `b`'s block. -/
private theorem cover2 (i : S64x256x1024.Idx) :
    ∃ t : Fin cfg0.N, (cfg0.win 2).flush t = true ∧ i ∈ ((cfg0.win 2).blk t).view.set := by
  have hN : cfg0.N = 64 := N_0
  have h0 : (i 0).val < 64 := (i 0).isLt
  have h1 : (i 1).val < 256 := (i 1).isLt
  have h2 : (i 2).val < 1024 := (i 2).isLt
  obtain ⟨t, ht⟩ : ∃ t : Fin cfg0.N, t.val = (i 0).val := ⟨⟨(i 0).val, by omega⟩, rfl⟩
  obtain ⟨-, -, -, -, -, -, e0, e1, e2, -⟩ := idx_facts t
  refine ⟨t, flush0_2 t, ?_⟩
  rw [mem_blk2]
  intro a
  match a with
  | ⟨0, _⟩ => show win0_2.index t (0 : Fin 3) * 1 ≤ (i 0).val ∧ (i 0).val < win0_2.index t (0 : Fin 3) * 1 + 1; rw [e0]; omega
  | ⟨1, _⟩ => show win0_2.index t (1 : Fin 3) * 256 ≤ (i 1).val ∧ (i 1).val < win0_2.index t (1 : Fin 3) * 256 + 256; rw [e1]; omega
  | ⟨2, _⟩ => show win0_2.index t (2 : Fin 3) * 1024 ≤ (i 2).val ∧ (i 2).val < win0_2.index t (2 : Fin 3) * 1024 + 1024; rw [e2]; omega

/-- and of the second likewise. -/
private theorem cover3 (i : S64x2x256.Idx) :
    ∃ t : Fin cfg0.N, (cfg0.win 3).flush t = true ∧ i ∈ ((cfg0.win 3).blk t).view.set := by
  have hN : cfg0.N = 64 := N_0
  have h0 : (i 0).val < 64 := (i 0).isLt
  have h1 : (i 1).val < 2 := (i 1).isLt
  have h2 : (i 2).val < 256 := (i 2).isLt
  obtain ⟨t, ht⟩ : ∃ t : Fin cfg0.N, t.val = (i 0).val := ⟨⟨(i 0).val, by omega⟩, rfl⟩
  obtain ⟨-, -, -, -, -, -, -, -, -, e0, e1, e2⟩ := idx_facts t
  refine ⟨t, flush0_3 t, ?_⟩
  rw [mem_blk3]
  intro a
  match a with
  | ⟨0, _⟩ => show win0_3.index t (0 : Fin 3) * 1 ≤ (i 0).val ∧ (i 0).val < win0_3.index t (0 : Fin 3) * 1 + 1; rw [e0]; omega
  | ⟨1, _⟩ => show win0_3.index t (1 : Fin 3) * 2 ≤ (i 1).val ∧ (i 1).val < win0_3.index t (1 : Fin 3) * 2 + 2; rw [e1]; omega
  | ⟨2, _⟩ => show win0_3.index t (2 : Fin 3) * 256 ≤ (i 2).val ∧ (i 2).val < win0_3.index t (2 : Fin 3) * 256 + 256; rw [e2]; omega

/-! ## The arrays after the region -/

private theorem arr2_eq (c : Dev nD) : (dat0 V c).arrAt 2 cfg0.N = G2 V c :=
  (dat0 V c).arrAt_eq_of_cover 2 (G2 V c) (fun t _ => flushed2_eq V c t) cover2

private theorem arr3_eq (c : Dev nD) : (dat0 V c).arrAt 3 cfg0.N = G3 V c :=
  (dat0 V c).arrAt_eq_of_cover 3 (G3 V c) (fun t _ => flushed3_eq V c t) cover3

/-- After the region the first result array holds the rectified convolution. -/
theorem arr_act (c : Dev nD) (b : Fin 64) (co : Fin 256) (t : Fin 1024) :
    ((dat0 V c).arrAt 2 cfg0.N : S64x256x1024.Idx → EReal) (ix3 b co t) = actK V c b co t :=
  congrFun (arr2_eq V c) (ix3 b co t)

/-- and the second one each row's sum (at 0) -/
theorem arr_stats0 (c : Dev nD) (b : Fin 64) (co : Fin 256) :
    ((dat0 V c).arrAt 3 cfg0.N : S64x2x256.Idx → EReal) (ix3 b 0 co) = ∑ t : Fin 1024, actK V c b co t :=
  (congrFun (arr3_eq V c) (ix3 b 0 co)).trans (if_pos rfl)

/-- and sum of squares (at 1). -/
theorem arr_stats1 (c : Dev nD) (b : Fin 64) (co : Fin 256) :
    ((dat0 V c).arrAt 3 cfg0.N : S64x2x256.Idx → EReal) (ix3 b 1 co) = ∑ t : Fin 1024, actK V c b co t * actK V c b co t :=
  (congrFun (arr3_eq V c) (ix3 b 1 co)).trans (if_neg (show ¬ ((1 : Fin 2).val = 0) by decide))

end Cert.KernelIdeal.Conv

end
-- ==== Proof.KApply.lean ====
/-
  The second pallas_call of the kernel's program, read as values at the extended reals: every grid point adds the 64 rows
  of partial sums, forms the mean, the variance and the reciprocal root per channel, and maps its row of rectified values
  by `y * (g * r) + (be - mean * (g * r))`. Stated for the whole result array after the region, index by index.
-/
import proofs.«176252_g2000201346594626_pallaspilot1_190_2_alg».proof.Defs
import proofs.«176252_g2000201346594626_pallaspilot1_190_2_alg».proof.Proof.Gen.KernelIdeal.Frame
import proofs.«176252_g2000201346594626_pallaspilot1_190_2_alg».proof.Proof.Spec

import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open scoped BigOperators
open Idealize.ShloMosaic Idealize.ShloMosaic.TcCoe Idealize.SL.Sem
open Idealize.ShloMosaic.Pipeline (Dat)
open Idealize.ShloMosaic.ValueIdx

namespace Cert.KernelIdeal.Apply

open Cert.KernelIdeal Cert.KernelIdeal.Gen

section Pieces
variable {α : Type}

/-- A vector laid as a column and spread along the rows reads, at `(p, c)`, the vector at `p`. -/
private theorem column_spread_apply (v : S256.Idx → α) (h1 : S256.ShapeCasts S256x1) (h2 : S256x1.Broadcasts S256x1024)
    (p : Fin 256) (c : Fin 1024) :
    broadcastTo S256x1024 (shapeCast S256x1 v h1) h2 (ix2 p c) = v (ix1 p) := by
  refine (broadcastTo_apply _ h2 (ix2 p c) (ix2 p (0 : Fin 1)) fun ax => ?_).trans ?_
  · match ax with
    | ⟨0, _⟩ => rfl
    | ⟨1, _⟩ => rfl
  · refine shapeCast_apply v h1 _ _ ?_
    rw [Shape.rowMajor_val_two, Shape.rowMajor_val_one]
    show p.val = p.val * 1 + 0
    omega

/-- The first row of a two-row matrix, cut out, reads the matrix at `(0, c)`. -/
private theorem row0_cut_apply (T : S2x256.Idx → α) (hs : S2x256.Slices ![0, 0] S1x256) (c : Fin 256) :
    extractStridedSlice S1x256 ![0, 0] T hs (ix2 (0 : Fin 1) c) = T (ix2 (0 : Fin 2) c) :=
  slice2_axis0_apply 0 T hs (0 : Fin 1) c (0 : Fin 2) rfl

/-- The second row, likewise, reads the matrix at `(1, c)`. -/
private theorem row1_cut_apply (T : S2x256.Idx → α) (hs : S2x256.Slices ![1, 0] S1x256) (c : Fin 256) :
    extractStridedSlice S1x256 ![1, 0] T hs (ix2 (0 : Fin 1) c) = T (ix2 (1 : Fin 2) c) :=
  slice2_axis0_apply 1 T hs (0 : Fin 1) c (1 : Fin 2) rfl

end Pieces

/-- The sum over the 64 rows of the partial sums, read at `(r, co)`. -/
private theorem rows_sum_apply (s : FVec Ideal S64x2x256 .f32) (hφ : FTy.f32 = FTy.f32 ∨ FTy.f32 = FTy.bf16)
    (hacc : (0x00000000#32 : BitVec 32) = 0x00000000#32) (r : Fin 2) (co : Fin 256) :
    multiReduction (F := Ideal) .add [0] S2x256 (shapeCast S64x2x256 s shapeCasts_S64x2x256_S64x2x256) 0x00000000#32
        reduces_S64x2x256_S2x256 hφ hacc (ix2 r co)
      = ∑ b' : Fin 64, s (ix3 b' r co) := by
  rw [shapeCast_self]
  refine (Ideal.multiReduction_add_single s 0x00000000#32 reduces_S64x2x256_S2x256 hφ hacc (ix2 r co)).trans ?_
  refine Finset.sum_congr rfl fun k _ => congrArg s ?_
  funext a
  match a with
  | ⟨0, _⟩ => rfl
  | ⟨1, _⟩ => rfl
  | ⟨2, _⟩ => rfl

/-- The reciprocal root of a vector, read at an index. -/
private theorem rsqrt_apply {s : Shape} {φ : FTy} (a : FVec Ideal s φ) (i : s.Idx) : rsqrt a i = Ideal.rsqrt (a i) := rfl

/-- The value the body stores, read at `(0, co, t)`: the totals are the sums over the 64 rows of the partial sums, the mean
    and the variance their quotients by the count, and the stored value the affine map of the rectified value. -/
private theorem pay_apply (s : Vec Ideal S64x2x256 .f32) (g be : Vec Ideal S1x256 .f32) (y : Vec Ideal S1x256x1024 .bf16)
    (co : Fin 256) (t : Fin 1024) :
    (k1_pay1 (F := Ideal) s g be y : S1x256x1024.Idx → EReal) (ix3 (0 : Fin 1) co t)
      = ConvBN.outK (y (ix3 0 co t)) (∑ b' : Fin 64, s (ix3 b' 0 co)) (∑ b' : Fin 64, s (ix3 b' 1 co))
          (g (ix2 0 co)) (be (ix2 0 co)) := by
  unfold k1_pay1
  refine (shapeCast_ab_1ab_apply _ _ (0 : Fin 1) co t).trans ?_
  simp only [addf_apply, mulf_apply, subf_apply, divf_apply, extf_apply, rsqrt_apply, broadcast_apply,
    column_spread_apply, row0_cut_apply, row1_cut_apply, rows_sum_apply, shapeCast_1a_a_apply, shapeCast_1ab_ab_apply,
    Ideal.ofBits_def]
  unfold ConvBN.outK ConvBN.rstd ConvBN.var ConvBN.mean ConvBN.cnt ConvBN.eps
  rw [rows_sum_apply s _ _ 0 co, rows_sum_apply s _ _ 1 co]

-- the TensorCore's buffer contents when the region is entered: a parameter, as in the region's proof data
variable (V : (c : Dev nD) → (b : Ref sig .tc) → Buf (Elt Ideal) ((c : Thread nD τ).loc b))

/-- The zero offsets of a whole rank-3 block, however spelt. -/
private theorem hz3 : (![0, 0, 0] : Fin 3 → Nat) = fun _ => 0 := funext fun a => by fin_cases a <;> rfl
/-- The zero offsets of a whole rank-2 block, however spelt. -/
private theorem hz2 : (![0, 0] : Fin 2 → Nat) = fun _ => 0 := funext fun a => by fin_cases a <;> rfl

/-- The windows' index maps, decided over the 64 points: the rectified values and the result move with the point along
    the batch axis, and the totals, the scale and the shift stay at block (0, …, 0). -/
private theorem idx_facts : ∀ t : Fin cfg1.N,
    win1_0.index t (0 : Fin 3) = t.val ∧ win1_0.index t (1 : Fin 3) = 0 ∧ win1_0.index t (2 : Fin 3) = 0
    ∧ win1_1.index t (0 : Fin 3) = 0 ∧ win1_1.index t (1 : Fin 3) = 0 ∧ win1_1.index t (2 : Fin 3) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 3) = t.val ∧ win1_4.index t (1 : Fin 3) = 0 ∧ win1_4.index t (2 : Fin 3) = 0 :=
  (by decide +kernel : ∀ t : Fin grid1.N, _)

/-- The block of rectified values at point `t` is row `t` of their array. -/
private theorem yblk_apply (c : Dev nD) (t : Fin cfg1.N) (b : Fin 64) (hb : b.val = t.val) (co : Fin 256) (p : Fin 1024) :
    (iblk1 V c 0 t : S1x256x1024.Idx → EReal) (ix3 (0 : Fin 1) co p)
      = (V c main_v2_0 : S64x256x1024.Idx → EReal) (ix3 b co p) := by
  obtain ⟨e0, e1, e2, -⟩ := idx_facts t
  unfold iblk1
  rw [View.read_apply]
  show V c main_v2_0 _ = V c main_v2_0 _
  congr 1
  funext a
  apply Fin.ext
  match a with
  | ⟨0, _⟩ => show win1_0.index t (0 : Fin 3) * 1 + 1 * 0 = b.val; rw [e0, hb]; omega
  | ⟨1, _⟩ => show win1_0.index t (1 : Fin 3) * 256 + 1 * co.val = co.val; rw [e1]; omega
  | ⟨2, _⟩ => show win1_0.index t (2 : Fin 3) * 1024 + 1 * p.val = p.val; rw [e2]; omega

/-- The block of partial sums at any point is their whole array. -/
private theorem sblk_eq (c : Dev nD) (t : Fin cfg1.N) :
    (iblk1 V c 1 t : S64x2x256.Idx → EReal) = (V c main_v2_1 : S64x2x256.Idx → EReal) := by
  obtain ⟨-, -, -, e0, e1, e2, -⟩ := idx_facts t
  funext j
  unfold iblk1
  rw [View.read_apply]
  show V c main_v2_1 _ = V c main_v2_1 _
  congr 1
  funext a
  apply Fin.ext
  match a with
  | ⟨0, _⟩ => show win1_1.index t (0 : Fin 3) * 64 + 1 * (j 0).val = (j 0).val; rw [e0]; omega
  | ⟨1, _⟩ => show win1_1.index t (1 : Fin 3) * 2 + 1 * (j 1).val = (j 1).val; rw [e1]; omega
  | ⟨2, _⟩ => show win1_1.index t (2 : Fin 3) * 256 + 1 * (j 2).val = (j 2).val; rw [e2]; omega

/-- The block of scales at any point is their whole array. -/
private theorem gblk_eq (c : Dev nD) (t : Fin cfg1.N) :
    (iblk1 V c 2 t : S1x256.Idx → EReal) = (V c main_v3 : S1x256.Idx → EReal) := by
  obtain ⟨-, -, -, -, -, -, e0, e1, -⟩ := idx_facts t
  funext j
  unfold iblk1
  rw [View.read_apply]
  show V c main_v3 _ = V c main_v3 _
  congr 1
  funext a
  apply Fin.ext
  match a with
  | ⟨0, _⟩ => show win1_2.index t (0 : Fin 2) * 1 + 1 * (j 0).val = (j 0).val; rw [e0]; omega
  | ⟨1, _⟩ => show win1_2.index t (1 : Fin 2) * 256 + 1 * (j 1).val = (j 1).val; rw [e1]; omega

/-- The block of shifts at any point is their whole array. -/
private theorem beblk_eq (c : Dev nD) (t : Fin cfg1.N) :
    (iblk1 V c 3 t : S1x256.Idx → EReal) = (V c main_v4 : S1x256.Idx → EReal) := by
  obtain ⟨-, -, -, -, -, -, -, -, e0, e1, -⟩ := idx_facts t
  funext j
  unfold iblk1
  rw [View.read_apply]
  show V c main_v4 _ = V c main_v4 _
  congr 1
  funext a
  apply Fin.ext
  match a with
  | ⟨0, _⟩ => show win1_3.index t (0 : Fin 2) * 1 + 1 * (j 0).val = (j 0).val; rw [e0]; omega
  | ⟨1, _⟩ => show win1_3.index t (1 : Fin 2) * 256 + 1 * (j 1).val = (j 1).val; rw [e1]; omega

/-- What the result array ends holding: at `(b, co, t)` the affine map of the rectified value there, with channel
    `co`'s two totals, scale and shift. -/
private def result (c : Dev nD) : S64x256x1024.Idx → EReal := fun i =>
  ConvBN.outK ((V c main_v2_0 : S64x256x1024.Idx → EReal) i)
    (∑ b' : Fin 64, (V c main_v2_1 : S64x2x256.Idx → EReal) (ix3 b' 0 (i 1)))
    (∑ b' : Fin 64, (V c main_v2_1 : S64x2x256.Idx → EReal) (ix3 b' 1 (i 1)))
    ((V c main_v3 : S1x256.Idx → EReal) (ix2 0 (i 1))) ((V c main_v4 : S1x256.Idx → EReal) (ix2 0 (i 1)))

/-- What point `t` writes back is row `t` of `result`. -/
private theorem flushed_eq (c : Dev nD) (t : Fin cfg1.N) :
    (dat1 V c).flushed 4 t = ((cfg1.win 4).blk t).view.read (Elt Ideal) (result V c) := by
  show (cfg1.win 4).cut (grid1.coords t) ((dat1 V c).after 4 t) = _
  rw [after1_4]
  unfold out1_4
  rw [View.canon_unit_zero hz3]
  simp only [View.ld_unit_zero (S := S64x2x256) hz3, View.ld_unit_zero (S := S1x256) hz2,
    View.ld_unit_zero (S := S1x256x1024) hz3]
  have hN : t.val < 64 := t.isLt.trans_eq N_1
  obtain ⟨-, -, -, -, -, -, -, -, -, -, e0, e1, e2⟩ := idx_facts t
  funext j
  obtain ⟨u, co, p, rfl⟩ : ∃ (u : Fin 1) (co : Fin 256) (p : Fin 1024), j = ix3 u co p := ⟨j 0, j 1, j 2, eq_ix3 j⟩
  obtain rfl : u = 0 := Subsingleton.elim _ _
  have he : ((cfg1.win 4).blk t).view.emb (ix3 (0 : Fin 1) co p) = (ix3 (⟨t.val, hN⟩ : Fin 64) co p : S64x256x1024.Idx) := by
    funext a
    apply Fin.ext
    match a with
    | ⟨0, _⟩ => show win1_4.index t (0 : Fin 3) * 1 + 1 * 0 = t.val; rw [e0]; omega
    | ⟨1, _⟩ => show win1_4.index t (1 : Fin 3) * 256 + 1 * co.val = co.val; rw [e1]; omega
    | ⟨2, _⟩ => show win1_4.index t (2 : Fin 3) * 1024 + 1 * p.val = p.val; rw [e2]; omega
  show k1_pay1 (F := Ideal) (iblk1 V c 1 t) (iblk1 V c 2 t) (iblk1 V c 3 t) (iblk1 V c 0 t) (ix3 (0 : Fin 1) co p)
    = result V c (((cfg1.win 4).blk t).view.emb (ix3 (0 : Fin 1) co p))
  rw [he]
  refine (pay_apply (iblk1 V c 1 t) (iblk1 V c 2 t) (iblk1 V c 3 t) (iblk1 V c 0 t) co p).trans ?_
  rw [yblk_apply V c t ⟨t.val, hN⟩ rfl co p, sblk_eq V c t, gblk_eq V c t, beblk_eq V c t]
  rfl

/-- An index of the result array is in point `t`'s block iff each coordinate is in the block's range on its axis. -/
private theorem mem_blk (t : Fin cfg1.N) (i : S64x256x1024.Idx) :
    i ∈ ((cfg1.win 4).blk t).view.set ↔ ∀ a : Fin 3, win1_4.index t a * S1x256x1024.size a ≤ (i a).val
      ∧ (i a).val < win1_4.index t a * S1x256x1024.size a + S1x256x1024.size a := by
  show i ∈ ((View.whole main_v5).slice (win1_4.rect t)).set ↔ _
  rw [View.set_slice_whole, Rect.mem_set_unit]
  exact Iff.rfl

/-- Row `b` of the result array is the block of point `b`: the 64 blocks cover the array. -/
private theorem cover (i : S64x256x1024.Idx) :
    ∃ t : Fin cfg1.N, (cfg1.win 4).flush t = true ∧ i ∈ ((cfg1.win 4).blk t).view.set := by
  have h0 : (i 0).val < 64 := (i 0).isLt
  have h1 : (i 1).val < 256 := (i 1).isLt
  have h2 : (i 2).val < 1024 := (i 2).isLt
  obtain ⟨t, ht⟩ : ∃ t : Fin cfg1.N, t.val = (i 0).val := ⟨⟨(i 0).val, h0.trans_eq N_1.symm⟩, rfl⟩
  obtain ⟨-, -, -, -, -, -, -, -, -, -, e0, e1, e2⟩ := idx_facts t
  refine ⟨t, flush1_4 t, ?_⟩
  rw [mem_blk]
  intro a
  match a with
  | ⟨0, _⟩ =>
    show win1_4.index t (0 : Fin 3) * 1 ≤ (i 0).val ∧ (i 0).val < win1_4.index t (0 : Fin 3) * 1 + 1
    rw [e0, ht]; omega
  | ⟨1, _⟩ =>
    show win1_4.index t (1 : Fin 3) * 256 ≤ (i 1).val ∧ (i 1).val < win1_4.index t (1 : Fin 3) * 256 + 256
    rw [e1]; omega
  | ⟨2, _⟩ =>
    show win1_4.index t (2 : Fin 3) * 1024 ≤ (i 2).val ∧ (i 2).val < win1_4.index t (2 : Fin 3) * 1024 + 1024
    rw [e2]; omega

/-- So the result array ends holding `result`. -/
private theorem final (c : Dev nD) : (dat1 V c).arrAt 4 cfg1.N = result V c :=
  (dat1 V c).arrAt_eq_of_cover 4 (result V c) (fun t _ => flushed_eq V c t) cover

/-- After the region the result array is the affine map of the rectified values, the totals summed over the 64 rows. -/
theorem arr_out (c : Dev nD) (b : Fin 64) (co : Fin 256) (t : Fin 1024) :
    ((dat1 V c).arrAt 4 cfg1.N : S64x256x1024.Idx → EReal) (ix3 b co t)
      = ConvBN.outK ((V c main_v2_0 : S64x256x1024.Idx → EReal) (ix3 b co t))
          (∑ b' : Fin 64, (V c main_v2_1 : S64x2x256.Idx → EReal) (ix3 b' 0 co))
          (∑ b' : Fin 64, (V c main_v2_1 : S64x2x256.Idx → EReal) (ix3 b' 1 co))
          ((V c main_v3 : S1x256.Idx → EReal) (ix2 0 co))
          ((V c main_v4 : S1x256.Idx → EReal) (ix2 0 co)) :=
  congrFun (final V c) (ix3 b co t)

end Cert.KernelIdeal.Apply

end
-- ==== Proof.KValue.lean ====
/-
  The kernel's program as ONE function of its arguments, at the extended reals. The host transposes the weights to
  [tap, out channel, in channel] before the first call and views the two per-channel vectors as one-row matrices before the
  second; neither call's arrays are touched in between. So the result buffer after the run is the second call's affine
  map of the first call's rectified convolution, its totals the first call's row sums added over the batch: the
  specification `ConvBN.G` of the four arguments as launched.
-/
import proofs.«176252_g2000201346594626_pallaspilot1_190_2_alg».proof.Defs
import proofs.«176252_g2000201346594626_pallaspilot1_190_2_alg».proof.Proof.Gen.KernelIdeal.Frame
import proofs.«176252_g2000201346594626_pallaspilot1_190_2_alg».proof.Proof.Spec
import proofs.«176252_g2000201346594626_pallaspilot1_190_2_alg».proof.Proof.KConv
import proofs.«176252_g2000201346594626_pallaspilot1_190_2_alg».proof.Proof.KApply
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws
import Idealize.ShloMosaic.Lib.Tactic

set_option maxRecDepth 16384

noncomputable section

open scoped BigOperators
open Idealize.ShloMosaic Idealize.ShloMosaic.TcCoe Idealize.SL.Sem
open Idealize.ShloMosaic.Pipeline (Dat)
open Idealize.ShloMosaic.ValueIdx

namespace Cert.KernelIdeal.Whole

open Cert.KernelIdeal Cert.KernelIdeal.Gen

variable (m : (ℓ : Loc nD τ sig) → Buf (Elt Ideal) ℓ) (ρ : Dev nD → PrngReg)

/-- The arguments as launched, by coordinates. -/
def xs (c : Dev nD) : Fin 64 → Fin 128 → Fin 1024 → EReal :=
  fun b ci t => (m ((c : Thread nD τ).loc main_arg0) : S64x128x1024.Idx → EReal) (ix3 b ci t)
def ws (c : Dev nD) : Fin 256 → Fin 128 → Fin 5 → EReal :=
  fun co ci k => (m ((c : Thread nD τ).loc main_arg1) : S256x128x5.Idx → EReal) (ix3 co ci k)
def gs (c : Dev nD) : Fin 256 → EReal :=
  fun co => (m ((c : Thread nD τ).loc main_arg2) : S256.Idx → EReal) (ix1 co)
def bs (c : Dev nD) : Fin 256 → EReal :=
  fun co => (m ((c : Thread nD τ).loc main_arg3) : S256.Idx → EReal) (ix1 co)

/-- A buffer no operation of a host stretch writes holds after the stretch what it held before. -/
macro "kept_through" : tactic => `(tactic| (
  refine StableHlo.after_of_forall_not_mem _ _ (List.forall_iff_forall_mem.mp ?_)
  simp only [hostOps0, hostOps1, List.Forall, StableHlo.nullary_writes, StableHlo.unary_writes, StableHlo.binary_writes,
    StableHlo.reshape_writes, Finset.mem_singleton]
  repeat' apply And.intro
  all_goals exact StableHlo.devRef_ne_of_ne (by decide)))

/-! ## Before the first call -/

theorem W1_arg0 (c : Dev nD) : W1 m ρ c (Proc.devRef .tc main_arg0) = m ((c : Thread nD τ).loc main_arg0) :=
  (show StableHlo.after hostOps0 (W0 m ρ c) (Proc.devRef .tc main_arg0) = W0 m ρ c (Proc.devRef .tc main_arg0) by kept_through).trans rfl
theorem W1_arg2 (c : Dev nD) : W1 m ρ c (Proc.devRef .tc main_arg2) = m ((c : Thread nD τ).loc main_arg2) :=
  (show StableHlo.after hostOps0 (W0 m ρ c) (Proc.devRef .tc main_arg2) = W0 m ρ c (Proc.devRef .tc main_arg2) by kept_through).trans rfl
theorem W1_arg3 (c : Dev nD) : W1 m ρ c (Proc.devRef .tc main_arg3) = m ((c : Thread nD τ).loc main_arg3) :=
  (show StableHlo.after hostOps0 (W0 m ρ c) (Proc.devRef .tc main_arg3) = W0 m ρ c (Proc.devRef .tc main_arg3) by kept_through).trans rfl

/-- The first call finds `x` as launched -/
theorem xin_eq (c : Dev nD) : Conv.xin (V1 m ρ) c = xs m c := by
  funext b ci t
  unfold Conv.xin xs
  exact congrFun (W1_arg0 m ρ c) _

/-- and the weights transposed: entry `(k, co, ci)` of what it finds is entry `(co, ci, k)` of the argument. -/
theorem win_eq (c : Dev nD) : Conv.win (V1 m ρ) c = ws m c := by
  funext co ci k
  unfold Conv.win ws
  have e : (V1 m ρ c main_v1 : S5x256x128.Idx → EReal)
      = truncf (F := Ideal) .bf16 (transpose S5x256x128 [2, 0, 1] (m ((c : Thread nD τ).loc main_arg1) : S256x128x5.Idx → EReal)
          transposes_S256x128x5_S5x256x128_2_0_1) bitsLt_bf16_f32 := by
    show StableHlo.after hostOps0 (W0 m ρ c) (Proc.devRef .tc main_v1) = _
    simp only [hostOps0]
    after_results
  rw [e]
  show transpose S5x256x128 [2, 0, 1] (m ((c : Thread nD τ).loc main_arg1) : S256x128x5.Idx → EReal) transposes_S256x128x5_S5x256x128_2_0_1 (ix3 k co ci) = _
  exact transpose_apply _ _ _ (ix3 k co ci) (ix3 co ci k) (fun b => match b with | ⟨0, _⟩ => rfl | ⟨1, _⟩ => rfl | ⟨2, _⟩ => rfl)

/-! ## Between the calls -/

/-- The second call finds the first call's two result arrays as the first call left them -/
theorem V3_act (c : Dev nD) : V3 m ρ c main_v2_0 = (dat0 (V1 m ρ) c).arrAt 2 cfg0.N :=
  (show StableHlo.after hostOps1 (W2 m ρ c) (Proc.devRef .tc main_v2_0) = W2 m ρ c (Proc.devRef .tc main_v2_0) by kept_through).trans
    (W2_arr m ρ c 2)
theorem V3_stats (c : Dev nD) : V3 m ρ c main_v2_1 = (dat0 (V1 m ρ) c).arrAt 3 cfg0.N :=
  (show StableHlo.after hostOps1 (W2 m ρ c) (Proc.devRef .tc main_v2_1) = W2 m ρ c (Proc.devRef .tc main_v2_1) by kept_through).trans
    (W2_arr m ρ c 3)

/-- and the two per-channel vectors as one-row matrices. -/
theorem V3_gamma (c : Dev nD) (co : Fin 256) : (V3 m ρ c main_v3 : S1x256.Idx → EReal) (ix2 0 co) = gs m c co := by
  have e : (V3 m ρ c main_v3 : S1x256.Idx → EReal)
      = shapeCast S1x256 (m ((c : Thread nD τ).loc main_arg2) : S256.Idx → EReal) shapeCasts_S256_S1x256 := by
    show StableHlo.after hostOps1 (W2 m ρ c) (Proc.devRef .tc main_v3) = _
    simp only [hostOps1]
    after_results
    rw [show W2 m ρ c (Proc.devRef .tc main_arg2) = m ((c : Thread nD τ).loc main_arg2) from
      (W2_of_ne m ρ c main_arg2 (by decide)).trans (W1_arg2 m ρ c)]
    rfl
  rw [e]
  exact shapeCast_a_1a_apply _ _ 0 co
theorem V3_beta (c : Dev nD) (co : Fin 256) : (V3 m ρ c main_v4 : S1x256.Idx → EReal) (ix2 0 co) = bs m c co := by
  have e : (V3 m ρ c main_v4 : S1x256.Idx → EReal)
      = shapeCast S1x256 (m ((c : Thread nD τ).loc main_arg3) : S256.Idx → EReal) shapeCasts_S256_S1x256 := by
    show StableHlo.after hostOps1 (W2 m ρ c) (Proc.devRef .tc main_v4) = _
    simp only [hostOps1]
    after_results
    rw [show W2 m ρ c (Proc.devRef .tc main_arg3) = m ((c : Thread nD τ).loc main_arg3) from
      (W2_of_ne m ρ c main_arg3 (by decide)).trans (W1_arg3 m ρ c)]
    rfl
  rw [e]
  exact shapeCast_a_1a_apply _ _ 0 co

/-! ## The whole program -/

/-- The result buffer after the run, index by index, is the specification of the arguments as launched. -/
theorem result (c : Dev nD) (b : Fin 64) (co : Fin 256) (t : Fin 1024) :
    (V4 m ρ c main_v5 : S64x256x1024.Idx → EReal) (ix3 b co t) = ConvBN.G (xs m c) (ws m c) (gs m c) (bs m c) b co t := by
  have h4 : V4 m ρ c main_v5 = (dat1 (V3 m ρ) c).arrAt 4 cfg1.N := W4_arr m ρ c 4
  rw [h4, Apply.arr_out (V3 m ρ) c b co t, V3_gamma, V3_beta, V3_act, V3_stats, Conv.arr_act (V1 m ρ) c b co t]
  simp only [Conv.arr_stats0 (V1 m ρ) c, Conv.arr_stats1 (V1 m ρ) c]
  unfold ConvBN.G ConvBN.tot Conv.actK
  rw [xin_eq, win_eq]

end Cert.KernelIdeal.Whole

end
-- ==== Proof.RPre.lean ====
/-
  The host operations the reference's program runs before its first pallas_call, read at an index at the extended reals:
  `x` padded by two zeros before and behind each row, and the weights transposed to [out channel, tap, in channel] and
  flattened to a 256 by 640 matrix whose column `128 k + ci` is tap `k` of input channel `ci`.
-/
import proofs.«176252_g2000201346594626_pallaspilot1_190_2_alg».proof.Defs
import proofs.«176252_g2000201346594626_pallaspilot1_190_2_alg».proof.Proof.Gen.ReferenceIdeal.Frame
import proofs.«176252_g2000201346594626_pallaspilot1_190_2_alg».proof.Proof.Spec
import Idealize.ShloMosaic.Lib.StableHlo.Run
import Idealize.ShloMosaic.Lib.KernelVsHost
import Idealize.ShloMosaic.Lib.IdealHost
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open scoped BigOperators
open Idealize.ShloMosaic Idealize.ShloMosaic.TcCoe Idealize.SL.Sem
open Idealize.ShloMosaic.Pipeline (Dat)
open Idealize.ShloMosaic.ValueIdx

namespace Cert.ReferenceIdeal.Pre

open Cert.ReferenceIdeal Cert.ReferenceIdeal.Gen

variable (m : (ℓ : Loc nD τ sig) → Buf (Elt Ideal) ℓ) (ρ : Dev nD → PrngReg)

/-- The arguments as launched, by coordinates. -/
def xs (c : Dev nD) : Fin 64 → Fin 128 → Fin 1024 → EReal :=
  fun b ci t => (m ((c : Thread nD τ).loc main_arg0) : S64x128x1024.Idx → EReal) (ix3 b ci t)
def ws (c : Dev nD) : Fin 256 → Fin 128 → Fin 5 → EReal :=
  fun co ci k => (m ((c : Thread nD τ).loc main_arg1) : S256x128x5.Idx → EReal) (ix3 co ci k)
def gs (c : Dev nD) : Fin 256 → EReal :=
  fun co => (m ((c : Thread nD τ).loc main_arg2) : S256.Idx → EReal) (ix1 co)
def bs (c : Dev nD) : Fin 256 → EReal :=
  fun co => (m ((c : Thread nD τ).loc main_arg3) : S256.Idx → EReal) (ix1 co)

/-- When the first region is entered the padded array holds each row of `x` between two pairs of zeros. -/
theorem V3_v0 (c : Dev nD) (b : Fin 64) (ci : Fin 128) (p : Fin 1028) :
    (V3 m ρ c main_v0 : S64x128x1028.Idx → EReal) (ix3 b ci p) = ConvBN.xpad (xs m c) b ci p.val := by
  dsimp only [V3, W3, W2, W1]
  simp only [hostOps0, hostOps0_1, hostOps0_2]
  after_results
  show pad S64x128x1028 ![0, 0, 2] ![0, 0, 2] ![0, 0, 0] (m ((c : Thread nD τ).loc main_arg0) : S64x128x1024.Idx → EReal)
    (sitofp (F := Ideal) FTy.f32 (constantI S_ 32 0#32) : S_.Idx → EReal)
    pads_S64x128x1024_S64x128x1028_000_000_220 h_S_ (ix3 b ci p) = _
  have hp := p.isLt
  unfold ConvBN.xpad
  split_ifs with h
  · refine (pad_apply_of_inside _ _ _ _ _ _ _ _ (ix3 b ci (⟨p.val - 2, by omega⟩ : Fin 1024)) ?_).trans rfl
    intro a
    fin_cases a
    · show b.val = 0 + b.val * (0 + 1); omega
    · show ci.val = 0 + ci.val * (0 + 1); omega
    · show p.val = 2 + (p.val - 2) * (0 + 1); omega
  · refine (pad_apply_of_not_inside _ _ _ _ _ _ _ _ (2 : Fin 3) ?_).trans ?_
    · intro hin
      have h1 : 2 ≤ p.val := hin.1
      have h2 : (p.val - 2) / (0 + 1) < 1024 := hin.2.2
      exact h ⟨h1, by omega⟩
    · show (((0#32 : BitVec 32).toInt : ℝ) : EReal) = 0
      simp

/-- and the weight matrix's column `j` is tap `j / 128` of input channel `j % 128`. -/
theorem V3_v2 (c : Dev nD) (co : Fin 256) (j : Fin 640) :
    (V3 m ρ c main_v2 : S256x640.Idx → EReal) (ix2 co j)
      = ws m c co ⟨j.val % 128, Nat.mod_lt _ (by norm_num)⟩ ⟨j.val / 128, by have := j.isLt; omega⟩ := by
  dsimp only [V3, W3, W2, W1]
  simp only [hostOps0, hostOps0_1, hostOps0_2]
  after_results
  show shapeCast S256x640 (transpose S256x5x128 [0, 2, 1] (m ((c : Thread nD τ).loc main_arg1) : S256x128x5.Idx → EReal)
    transposes_S256x128x5_S256x5x128_0_2_1) shapeCasts_S256x5x128_S256x640 (ix2 co j) = _
  have hj := j.isLt
  refine (shapeCast_apply _ _ _ (ix3 co (⟨j.val / 128, by omega⟩ : Fin 5) (⟨j.val % 128, Nat.mod_lt _ (by norm_num)⟩ : Fin 128)) ?_).trans ?_
  · rw [Shape.rowMajor_val_three, Shape.rowMajor_val_two]
    show (co.val * 5 + j.val / 128) * 128 + j.val % 128 = co.val * 640 + j.val
    omega
  · exact (transpose_ix3_021_apply _ _ co _ _).trans rfl

end Cert.ReferenceIdeal.Pre

end
-- ==== Proof.RConv.lean ====
/-
  The first pallas_call of the reference's program, read as values at the extended reals: grid point `(b, l)` loads 516
  positions of the padded row `b` from position `512 l`, stacks its five shifts into a 640-row matrix, multiplies by the
  256 by 640 weight matrix in one contraction, rectifies, and writes back the 512-position tile and the tile's two sums.
  Stated for the whole result arrays after the region, index by index.
-/
import proofs.«176252_g2000201346594626_pallaspilot1_190_2_alg».proof.Defs
import proofs.«176252_g2000201346594626_pallaspilot1_190_2_alg».proof.Proof.Gen.ReferenceIdeal.Frame
import proofs.«176252_g2000201346594626_pallaspilot1_190_2_alg».proof.Proof.Spec

import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open scoped BigOperators
open Idealize.ShloMosaic Idealize.ShloMosaic.TcCoe Idealize.SL.Sem
open Idealize.ShloMosaic.Pipeline (Dat)
open Idealize.ShloMosaic.ValueIdx

namespace Cert.ReferenceIdeal.Conv

open Cert.ReferenceIdeal Cert.ReferenceIdeal.Gen

/-! ## What the body's two stores leave, as terms of its two loads -/

section Pieces
variable {F : FTy → Type} [FloatOps F]

private theorem hz3 : (![0, 0, 0] : Fin 3 → Nat) = fun _ => 0 := funext fun a => by fin_cases a <;> rfl
private theorem hz4 : (![0, 0, 0, 0] : Fin 4 → Nat) = fun _ => 0 := funext fun a => by fin_cases a <;> rfl
private theorem hz2 : (![0, 0] : Fin 2 → Nat) = fun _ => 0 := funext fun a => by fin_cases a <;> rfl

/-- The one store into the first result's buffer: the rectified product of the loaded 516 columns and the weights. -/
theorem out2_eq (c : Dev nD) (i : grid0.Coords) (arg2 : Memref sig .tc .vmem S1x128x1028 .f32) (harg2 : arg2.IsWhole) (arg3 : Memref sig .tc .vmem S256x640 .f32) (harg3 : arg3.IsWhole) (arg4 : Memref sig .tc .vmem S1x256x512 .f32) (harg4 : arg4.IsWhole) (arg5 : Memref sig .tc .vmem S1x1x256x2 .f32) (harg5 : arg5.IsWhole)
    (x0 : Vec F S1x128x1028 .f32) (x1 : Vec F S256x640 .f32) :
    out0_A_2 (F := F) c i arg2 harg2 arg3 harg3 arg4 harg4 arg5 harg5 x0 x1
      = k0_pay2 (View.ld x0 (Rect.unit (s := S1x128x1028) (k0_off1 i) S1x128x516.size (k0_off1_inb i))) x1 := by
  unfold out0_A_2
  rw [View.read_writes_eq_canon _ _ _ (cover0_A_2 c i arg2 harg2 arg3 harg3 arg4 harg4 arg5 harg5 x0 x1)]
  unfold kernelRun0_A
  dsimp only
  sl_unfold_words
  rw [View.canon_unit_zero hz3]
  simp only [View.readAt_eq_ld, harg2.read_unread, harg3.read_unread, View.ld_unit_zero (S := S256x640) hz2]

/-- The one store into the second result's buffer: the two sums of that product's rows. -/
theorem out3_eq (c : Dev nD) (i : grid0.Coords) (arg2 : Memref sig .tc .vmem S1x128x1028 .f32) (harg2 : arg2.IsWhole) (arg3 : Memref sig .tc .vmem S256x640 .f32) (harg3 : arg3.IsWhole) (arg4 : Memref sig .tc .vmem S1x256x512 .f32) (harg4 : arg4.IsWhole) (arg5 : Memref sig .tc .vmem S1x1x256x2 .f32) (harg5 : arg5.IsWhole)
    (x0 : Vec F S1x128x1028 .f32) (x1 : Vec F S256x640 .f32) :
    out0_A_3 (F := F) c i arg2 harg2 arg3 harg3 arg4 harg4 arg5 harg5 x0 x1
      = k0_pay3 (View.ld x0 (Rect.unit (s := S1x128x1028) (k0_off1 i) S1x128x516.size (k0_off1_inb i))) x1 := by
  unfold out0_A_3
  rw [View.read_writes_eq_canon _ _ _ (cover0_A_3 c i arg2 harg2 arg3 harg3 arg4 harg4 arg5 harg5 x0 x1)]
  unfold kernelRun0_A
  dsimp only
  sl_unfold_words
  rw [View.canon_unit_zero hz4]
  simp only [View.readAt_eq_ld, harg2.read_unread, harg3.read_unread, View.ld_unit_zero (S := S256x640) hz2]

end Pieces

/-! ## The body's arithmetic at an index -/

/-- The 256 by 640 times 640 by 512 product into the zero splat, at an index: the sum over the 640 contracted rows. -/
theorem mm_apply (A : FVec Ideal S256x640 .f32) (B : FVec Ideal S640x512 .f32) (co : Fin 256) (t' : Fin 512) :
    matmul dot_S256x640_S640x512_S256x512_1_0_0_1_n_n none A B (constant (F := Ideal) S256x512 .f32 0x00000000#32) (ix2 co t')
      = ∑ j : Fin 640, A (ix2 co j) * B (ix2 j t') := by
  show FloatOps.matmul _ none A B _ (ix2 co t') = _
  rw [Ideal.matmul_constant_zero_apply,
    ← Equiv.sum_comp (contrEquiv1 dot_S256x640_S640x512_S256x512_1_0_0_1_n_n 640 rfl rfl).symm]
  refine Finset.sum_congr rfl fun j _ => ?_
  have cj := contrEquiv1_symm_val dot_S256x640_S640x512_S256x512_1_0_0_1_n_n 640 rfl rfl j
  have l : dot_S256x640_S640x512_S256x512_1_0_0_1_n_n.lhsIdx (ix2 co t') ((contrEquiv1 _ 640 rfl rfl).symm j) = ix2 co j := by
    funext ax; apply Fin.ext
    match ax with
    | ⟨0, _⟩ => simp [DotDims.lhsIdx, dot_S256x640_S640x512_S256x512_1_0_0_1_n_n]; rfl
    | ⟨1, _⟩ => simp [DotDims.lhsIdx, dot_S256x640_S640x512_S256x512_1_0_0_1_n_n]; exact cj
  have r : dot_S256x640_S640x512_S256x512_1_0_0_1_n_n.rhsIdx (ix2 co t') ((contrEquiv1 _ 640 rfl rfl).symm j) = ix2 j t' := by
    funext ax; apply Fin.ext
    match ax with
    | ⟨0, _⟩ => simp [DotDims.rhsIdx, dot_S256x640_S640x512_S256x512_1_0_0_1_n_n]; exact cj
    | ⟨1, _⟩ => simp [DotDims.rhsIdx, dot_S256x640_S640x512_S256x512_1_0_0_1_n_n]; rfl
  rw [l, r]

/-- Row `j` of the five shifted copies stacked on top of each other is copy `j / 128`, row `j % 128`:
    the 516-column block read `j / 128` columns further on. -/
theorem stack_apply (v4 : FVec Ideal S128x516 .f32) (j : Fin 640) (t' : Fin 512) :
    concatenate S640x512 0
        [⟨S128x512, extractStridedSlice S128x512 ![0, 0] v4 slices_S128x516_o0_0_S128x512⟩,
         ⟨S128x512, extractStridedSlice S128x512 ![0, 1] v4 slices_S128x516_o0_1_S128x512⟩,
         ⟨S128x512, extractStridedSlice S128x512 ![0, 2] v4 slices_S128x516_o0_2_S128x512⟩,
         ⟨S128x512, extractStridedSlice S128x512 ![0, 3] v4 slices_S128x516_o0_3_S128x512⟩,
         ⟨S128x512, extractStridedSlice S128x512 ![0, 4] v4 slices_S128x516_o0_4_S128x512⟩]
        concatenates_S128x512_S128x512_S128x512_S128x512_S128x512_S640x512_d0 (ix2 j t')
      = v4 (ix2 (⟨j.val % 128, Nat.mod_lt _ (by norm_num)⟩ : Fin 128)
              (⟨t'.val + j.val / 128, by have := j.isLt; have := t'.isLt; omega⟩ : Fin 516)) := by
  have hj := j.isLt
  have ht := t'.isLt
  have h5 : j.val / 128 = 0 ∨ j.val / 128 = 1 ∨ j.val / 128 = 2 ∨ j.val / 128 = 3 ∨ j.val / 128 = 4 := by omega
  rcases h5 with h | h | h | h | h
  · refine (concatenate_apply_piece (0 : Fin 2) _ _ (ix2 j t') 0 (by simp) S128x512 _ rfl rfl 0 rfl
        (ix2 (⟨j.val % 128, Nat.mod_lt _ (by norm_num)⟩ : Fin 128) t') (fun b hb => ?_) ?_).trans ?_
    · match b, hb with
      | ⟨0, _⟩, hb => exact absurd rfl hb
      | ⟨1, _⟩, _ => rfl
    · show 0 + j.val % 128 = j.val; omega
    · exact slice2_axis1_apply 0 v4 _ _ _ _ (by show t'.val + j.val / 128 = 0 + t'.val; omega)
  · refine (concatenate_apply_piece (0 : Fin 2) _ _ (ix2 j t') 1 (by simp) S128x512 _ rfl rfl 128 rfl
        (ix2 (⟨j.val % 128, Nat.mod_lt _ (by norm_num)⟩ : Fin 128) t') (fun b hb => ?_) ?_).trans ?_
    · match b, hb with
      | ⟨0, _⟩, hb => exact absurd rfl hb
      | ⟨1, _⟩, _ => rfl
    · show 128 + j.val % 128 = j.val; omega
    · exact slice2_axis1_apply 1 v4 _ _ _ _ (by show t'.val + j.val / 128 = 1 + t'.val; omega)
  · refine (concatenate_apply_piece (0 : Fin 2) _ _ (ix2 j t') 2 (by simp) S128x512 _ rfl rfl 256 rfl
        (ix2 (⟨j.val % 128, Nat.mod_lt _ (by norm_num)⟩ : Fin 128) t') (fun b hb => ?_) ?_).trans ?_
    · match b, hb with
      | ⟨0, _⟩, hb => exact absurd rfl hb
      | ⟨1, _⟩, _ => rfl
    · show 256 + j.val % 128 = j.val; omega
    · exact slice2_axis1_apply 2 v4 _ _ _ _ (by show t'.val + j.val / 128 = 2 + t'.val; omega)
  · refine (concatenate_apply_piece (0 : Fin 2) _ _ (ix2 j t') 3 (by simp) S128x512 _ rfl rfl 384 rfl
        (ix2 (⟨j.val % 128, Nat.mod_lt _ (by norm_num)⟩ : Fin 128) t') (fun b hb => ?_) ?_).trans ?_
    · match b, hb with
      | ⟨0, _⟩, hb => exact absurd rfl hb
      | ⟨1, _⟩, _ => rfl
    · show 384 + j.val % 128 = j.val; omega
    · exact slice2_axis1_apply 3 v4 _ _ _ _ (by show t'.val + j.val / 128 = 3 + t'.val; omega)
  · refine (concatenate_apply_piece (0 : Fin 2) _ _ (ix2 j t') 4 (by simp) S128x512 _ rfl rfl 512 rfl
        (ix2 (⟨j.val % 128, Nat.mod_lt _ (by norm_num)⟩ : Fin 128) t') (fun b hb => ?_) ?_).trans ?_
    · match b, hb with
      | ⟨0, _⟩, hb => exact absurd rfl hb
      | ⟨1, _⟩, _ => rfl
    · show 512 + j.val % 128 = j.val; omega
    · exact slice2_axis1_apply 4 v4 _ _ _ _ (by show t'.val + j.val / 128 = 4 + t'.val; omega)

/-- The rectified product at `(co, t')`: one sum over the 640 rows of the stack, against the weights' row `co`. -/
theorem pay1_apply (v3 : Vec Ideal S1x128x516 .f32) (v11 : Vec Ideal S256x640 .f32) (co : Fin 256) (t' : Fin 512) :
    k0_pay1 (F := Ideal) v3 v11 (ix2 co t')
      = max (∑ j : Fin 640, v11 (ix2 co j) * v3 (ix3 (0 : Fin 1) (⟨j.val % 128, Nat.mod_lt _ (by norm_num)⟩ : Fin 128)
              (⟨t'.val + j.val / 128, by have := j.isLt; have := t'.isLt; omega⟩ : Fin 516))) 0 := by
  unfold k0_pay1
  refine (maximumf_apply _ _ _).trans ?_
  refine congrArg₂ max ?_ ?_
  · refine (mm_apply _ _ co t').trans ?_
    refine Finset.sum_congr rfl fun j _ => ?_
    rw [shapeCast_self]
    refine congrArg (v11 (ix2 co j) * ·) ?_
    refine (stack_apply _ j t').trans ?_
    exact shapeCast_1ab_ab_apply v3 _ _ _
  · show Ideal.ofBits .f32 0x00000000#32 = 0
    exact Ideal.ofBits_zero_f32

/-- The stored tile is that product with a unit axis in front. -/
theorem pay2_apply (v3 : Vec Ideal S1x128x516 .f32) (v11 : Vec Ideal S256x640 .f32) (u : Fin 1) (co : Fin 256) (t' : Fin 512) :
    k0_pay2 (F := Ideal) v3 v11 (ix3 u co t') = k0_pay1 (F := Ideal) v3 v11 (ix2 co t') := by
  unfold k0_pay2
  exact shapeCast_ab_1ab_apply _ _ u co t'

/-- A 256 by 2 matrix under two unit axes in front, at an index. -/
theorem cast_11ab_apply {α : Type} (x : S256x2.Idx → α) (h : S256x2.ShapeCasts S1x1x256x2) (u u' : Fin 1) (co : Fin 256) (e : Fin 2) :
    shapeCast S1x1x256x2 x h (ix4 u u' co e) = x (ix2 co e) :=
  shapeCast_apply x h _ _ (by
    have hu : u.val = 0 := by omega
    have hu' : u'.val = 0 := by omega
    rw [Shape.rowMajor_val_four, Shape.rowMajor_val_two]
    show co.val * 2 + e.val = ((u.val * 1 + u'.val) * 256 + co.val) * 2 + e.val
    rw [hu, hu']; omega)

/-- A 256-vector as a column, at an index. -/
theorem cast_col_apply {α : Type} (x : S256.Idx → α) (h : S256.ShapeCasts S256x1) (co : Fin 256) (z : Fin 1) :
    shapeCast S256x1 x h (ix2 co z) = x (ix1 co) :=
  shapeCast_apply x h _ _ (by
    have hz : z.val = 0 := by omega
    rw [Shape.rowMajor_val_one, Shape.rowMajor_val_two]
    show co.val = co.val * 1 + z.val
    rw [hz]; omega)

/-- The sum over the 512 columns of a 256 by 512 matrix, row by row. -/
theorem rowsum_apply (P : FVec Ideal S256x512 .f32) (co : Fin 256) :
    multiReduction (F := Ideal) .add [1] S256 P 0x00000000#32 reduces_S256x512_S256 (.inl rfl) rfl (ix1 co)
      = ∑ t' : Fin 512, P (ix2 co t') := by
  refine (Ideal.multiReduction_add_single P 0x00000000#32 reduces_S256x512_S256 (.inl rfl) rfl (ix1 co)).trans ?_
  refine Finset.sum_congr rfl fun k _ => ?_
  refine congrArg P ?_
  funext ax; apply Fin.ext
  match ax with
  | ⟨0, _⟩ => rfl
  | ⟨1, _⟩ => rfl

/-- The stored pair of columns at `(co, 0)`: the sum of row `co` of the rectified product. -/
theorem pay3_apply0 (v3 : Vec Ideal S1x128x516 .f32) (v11 : Vec Ideal S256x640 .f32) (u u' : Fin 1) (co : Fin 256) :
    k0_pay3 (F := Ideal) v3 v11 (ix4 u u' co (0 : Fin 2)) = ∑ t' : Fin 512, k0_pay1 (F := Ideal) v3 v11 (ix2 co t') := by
  unfold k0_pay3
  refine (cast_11ab_apply _ _ u u' co 0).trans ?_
  refine (concatenate_pair_apply_left (t := S256x2) (s₁ := S256x1) (s₂ := S256x1) (1 : Fin 2) _ _ _ (ix2 co (0 : Fin 2)) rfl (ix2 co (0 : Fin 1)) (fun b => ?_)).trans ?_
  · match b with
    | ⟨0, _⟩ => rfl
    | ⟨1, _⟩ => rfl
  refine (cast_col_apply _ _ co 0).trans ?_
  exact rowsum_apply _ co

/-- and at `(co, 1)`: the sum of the squares of that row. -/
theorem pay3_apply1 (v3 : Vec Ideal S1x128x516 .f32) (v11 : Vec Ideal S256x640 .f32) (u u' : Fin 1) (co : Fin 256) :
    k0_pay3 (F := Ideal) v3 v11 (ix4 u u' co (1 : Fin 2))
      = ∑ t' : Fin 512, k0_pay1 (F := Ideal) v3 v11 (ix2 co t') * k0_pay1 (F := Ideal) v3 v11 (ix2 co t') := by
  unfold k0_pay3
  refine (cast_11ab_apply _ _ u u' co 1).trans ?_
  refine (concatenate_pair_apply_right (t := S256x2) (s₁ := S256x1) (s₂ := S256x1) (1 : Fin 2) _ _ _ (ix2 co (1 : Fin 2)) rfl rfl (ix2 co (0 : Fin 1)) (fun b hb => ?_) ?_).trans ?_
  · match b, hb with
    | ⟨0, _⟩, _ => rfl
    | ⟨1, _⟩, hb => exact absurd rfl hb
  · rfl
  refine (cast_col_apply _ _ co 0).trans ?_
  exact rowsum_apply _ co

-- the TensorCore's buffer contents when the region is entered: a parameter, as in the region's proof data
variable (V : (c : Dev nD) → (b : Ref sig .tc) → Buf (Elt Ideal) ((c : Thread nD τ).loc b))

/-- The padded `x` as the region finds it, by coordinates (zero past the array's 1028 positions, which no index reaches). -/
def xpin (c : Dev nD) : Fin 64 → Fin 128 → ℕ → EReal :=
  fun b ci p => if h : p < 1028 then (V c main_v0 : S64x128x1028.Idx → EReal) (ix3 b ci ⟨p, h⟩) else 0
/-- The weight matrix as the region finds it. -/
def wmin (c : Dev nD) : Fin 256 → Fin 640 → EReal :=
  fun co j => (V c main_v2 : S256x640.Idx → EReal) (ix2 co j)
/-- The rectified single contraction of what the region finds. -/
def actR (c : Dev nD) (b : Fin 64) (co : Fin 256) (t : Fin 1024) : EReal :=
  max (ConvBN.conv640 (xpin V c) (wmin V c) b co t.val) 0

/-! ## The grid: point `t` is tile `t % 2` of row `t / 2` -/

private theorem hN : cfg0.N = 128 := N_0

/-- Every window's block index at point `t`, and the load's offset there, decided over the 128 points. -/
theorem idx_facts : ∀ t : Fin cfg0.N,
    win0_0.index t (0 : Fin 3) = t.val / 2 ∧ win0_0.index t (1 : Fin 3) = 0 ∧ win0_0.index t (2 : Fin 3) = 0
    ∧ win0_1.index t (0 : Fin 2) = 0 ∧ win0_1.index t (1 : Fin 2) = 0
    ∧ win0_2.index t (0 : Fin 3) = t.val / 2 ∧ win0_2.index t (1 : Fin 3) = 0 ∧ win0_2.index t (2 : Fin 3) = t.val % 2
    ∧ win0_3.index t (0 : Fin 4) = t.val / 2 ∧ win0_3.index t (1 : Fin 4) = t.val % 2
      ∧ win0_3.index t (2 : Fin 4) = 0 ∧ win0_3.index t (3 : Fin 4) = 0
    ∧ k0_off1 (grid0.coords t) (0 : Fin 3) = 0 ∧ k0_off1 (grid0.coords t) (1 : Fin 3) = 0
      ∧ k0_off1 (grid0.coords t) (2 : Fin 3) = 512 * (t.val % 2) :=
  (by decide +kernel : ∀ t : Fin grid0.N, _)

/-- The point's row of the batch. -/
abbrev rowOf (t : Fin cfg0.N) : Fin 64 := ⟨t.val / 2, by have h1 := t.isLt; have h2 := hN; omega⟩
/-- The point's tile of the row. -/
abbrev tileOf (t : Fin cfg0.N) : Fin 2 := ⟨t.val % 2, Nat.mod_lt _ (by norm_num)⟩

/-! ## The input blocks at a point -/

/-- The padded input's block at point `t` is its row `t / 2`, whole. -/
theorem xblk_apply (c : Dev nD) (t : Fin cfg0.N) (u : Fin 1) (ci : Fin 128) (p : Fin 1028) :
    (iblk0 V c 0 t : Vec Ideal S1x128x1028 .f32) (ix3 u ci p)
      = (V c main_v0 : S64x128x1028.Idx → EReal) (ix3 (rowOf t) ci p) := by
  obtain ⟨e0, e1, e2, -⟩ := idx_facts t
  have hu : u.val = 0 := by omega
  unfold iblk0
  rw [View.read_apply]
  show V c main_v0 _ = V c main_v0 _
  congr 1
  funext a
  apply Fin.ext
  match a with
  | ⟨0, _⟩ => show win0_0.index t (0 : Fin 3) * 1 + 1 * u.val = t.val / 2; rw [e0, hu]; omega
  | ⟨1, _⟩ => show win0_0.index t (1 : Fin 3) * 128 + 1 * ci.val = ci.val; rw [e1]; omega
  | ⟨2, _⟩ => show win0_0.index t (2 : Fin 3) * 1028 + 1 * p.val = p.val; rw [e2]; omega

/-- The weights' block at every point is the whole matrix. -/
theorem wblk_apply (c : Dev nD) (t : Fin cfg0.N) (co : Fin 256) (j : Fin 640) :
    (iblk0 V c 1 t : Vec Ideal S256x640 .f32) (ix2 co j) = (V c main_v2 : S256x640.Idx → EReal) (ix2 co j) := by
  obtain ⟨-, -, -, e0, e1, -⟩ := idx_facts t
  unfold iblk0
  rw [View.read_apply]
  show V c main_v2 _ = V c main_v2 _
  congr 1
  funext a
  apply Fin.ext
  match a with
  | ⟨0, _⟩ => show win0_1.index t (0 : Fin 2) * 256 + 1 * co.val = co.val; rw [e0]; omega
  | ⟨1, _⟩ => show win0_1.index t (1 : Fin 2) * 640 + 1 * j.val = j.val; rw [e1]; omega

/-- A load of 516 columns from column `o` on: the block read `o` columns further on. -/
theorem ld_off_apply (x0 : Vec Ideal S1x128x1028 .f32) (off : Fin 3 → Nat)
    (inb : ∀ a, off a + S1x128x516.size a ≤ S1x128x1028.size a)
    (h0 : off (0 : Fin 3) = 0) (h1 : off (1 : Fin 3) = 0) (o : Nat) (h2 : off (2 : Fin 3) = o)
    (u : Fin 1) (ci : Fin 128) (q : Fin 516) (p : Fin 1028) (hp : p.val = o + q.val) :
    View.ld x0 (Rect.unit (s := S1x128x1028) off S1x128x516.size inb) (ix3 u ci q) = x0 (ix3 u ci p) := by
  show x0 ((Rect.unit (s := S1x128x1028) off S1x128x516.size inb).emb (ix3 u ci q)) = _
  refine congrArg x0 ?_
  funext a
  apply Fin.ext
  rw [Rect.emb_apply, Rect.off_unit, Rect.stride_unit]
  match a with
  | ⟨0, _⟩ => show off (0 : Fin 3) + 1 * u.val = u.val; rw [h0]; omega
  | ⟨1, _⟩ => show off (1 : Fin 3) + 1 * ci.val = ci.val; rw [h1]; omega
  | ⟨2, _⟩ => show off (2 : Fin 3) + 1 * q.val = p.val; rw [h2, hp]; omega

/-! ## The body's loads and its two results at a point -/

/-- The input blocks at point `t`, named at their literal types, and the 516 columns the point loads. -/
abbrev xb (c : Dev nD) (t : Fin cfg0.N) : Vec Ideal S1x128x1028 .f32 := iblk0 V c 0 t
abbrev wb (c : Dev nD) (t : Fin cfg0.N) : Vec Ideal S256x640 .f32 := iblk0 V c 1 t
abbrev lb (c : Dev nD) (t : Fin cfg0.N) : Vec Ideal S1x128x516 .f32 :=
  View.ld (xb V c t) (Rect.unit (s := S1x128x1028) (k0_off1 (grid0.coords t)) S1x128x516.size (k0_off1_inb (grid0.coords t)))

/-- The loaded columns are the row's positions `512 (t % 2) + q`. -/
theorem lb_apply (c : Dev nD) (t : Fin cfg0.N) (u : Fin 1) (ci : Fin 128) (q : Fin 516) :
    lb V c t (ix3 u ci q) = xpin V c (rowOf t) ci ((tileOf t).val * 512 + q.val) := by
  obtain ⟨-, -, -, -, -, -, -, -, -, -, -, -, o0, o1, o2⟩ := idx_facts t
  have hq := q.isLt
  have hp : (tileOf t).val * 512 + q.val < 1028 := by show t.val % 2 * 512 + q.val < 1028; omega
  refine (ld_off_apply (xb V c t) _ _ o0 o1 (512 * (t.val % 2)) o2 u ci q ⟨(tileOf t).val * 512 + q.val, hp⟩
    (by show t.val % 2 * 512 + q.val = 512 * (t.val % 2) + q.val; omega)).trans ?_
  refine (xblk_apply V c t u ci _).trans ?_
  unfold xpin
  rw [dif_pos hp]

/-- The rectified product at the point, at `(co, t')`, is the rectified convolution at position `512 (t % 2) + t'`. -/
theorem pay1_point (c : Dev nD) (t : Fin cfg0.N) (co : Fin 256) (t' : Fin 512) :
    k0_pay1 (F := Ideal) (lb V c t) (wb V c t) (ix2 co t')
      = actR V c (rowOf t) co ⟨(tileOf t).val * 512 + t'.val, by
          have h1 : (tileOf t).val < 2 := (tileOf t).isLt; have h2 := t'.isLt; omega⟩ := by
  refine (pay1_apply (lb V c t) (wb V c t) co t').trans ?_
  unfold actR Cert.ConvBN.conv640
  refine congrArg (max · 0) ?_
  refine Finset.sum_congr rfl fun j _ => ?_
  refine congrArg₂ (· * ·) (wblk_apply V c t co j) ?_
  refine (lb_apply V c t 0 _ _).trans ?_
  refine congrArg (xpin V c (rowOf t) _) ?_
  show (tileOf t).val * 512 + (t'.val + j.val / 128) = (tileOf t).val * 512 + t'.val + j.val / 128
  omega

/-- What the point leaves in the first result's buffer, at an index. -/
theorem tile_apply (c : Dev nD) (t : Fin cfg0.N) (u : Fin 1) (co : Fin 256) (t' : Fin 512) :
    ((outsAt0 V c t).1 : Vec Ideal S1x256x512 .f32) (ix3 u co t')
      = actR V c (rowOf t) co ⟨(tileOf t).val * 512 + t'.val, by
          have h1 : (tileOf t).val < 2 := (tileOf t).isLt; have h2 := t'.isLt; omega⟩ := by
  have e : ((outsAt0 V c t).1 : Vec Ideal S1x256x512 .f32) = k0_pay2 (F := Ideal) (lb V c t) (wb V c t) := by
    unfold outsAt0
    dsimp only
    exact out2_eq (F := Ideal) c (grid0.coords t) (ms0_0 t) (hs0_0 t) (ms0_1 t) (hs0_1 t) (ms0_2 t) (hs0_2 t) (ms0_3 t) (hs0_3 t) (iblk0 V c 0 t) (iblk0 V c 1 t)
  rw [e]
  exact (pay2_apply _ _ u co t').trans (pay1_point V c t co t')

/-- What the point leaves in the second result's buffer, at `(co, 0)` and at `(co, 1)`. -/
theorem sums_apply (c : Dev nD) (t : Fin cfg0.N) :
    ((outsAt0 V c t).2 : Vec Ideal S1x1x256x2 .f32) = k0_pay3 (F := Ideal) (lb V c t) (wb V c t) := by
  unfold outsAt0
  dsimp only
  exact out3_eq (F := Ideal) c (grid0.coords t) (ms0_0 t) (hs0_0 t) (ms0_1 t) (hs0_1 t) (ms0_2 t) (hs0_2 t) (ms0_3 t) (hs0_3 t) (iblk0 V c 0 t) (iblk0 V c 1 t)

/-- The two sums of a tile, by the last coordinate. -/
def stat (c : Dev nD) (b : Fin 64) (l : Fin 2) (co : Fin 256) (e : Fin 2) : EReal :=
  if e.val = 0 then
    ∑ t' : Fin 512, actR V c b co ⟨l.val * 512 + t'.val, by have := l.isLt; have := t'.isLt; omega⟩
  else
    ∑ t' : Fin 512, actR V c b co ⟨l.val * 512 + t'.val, by have := l.isLt; have := t'.isLt; omega⟩
      * actR V c b co ⟨l.val * 512 + t'.val, by have := l.isLt; have := t'.isLt; omega⟩

theorem actR_congr (c : Dev nD) {b b' : Fin 64} {co co' : Fin 256} {p p' : Fin 1024}
    (hb : b.val = b'.val) (hco : co.val = co'.val) (hp : p.val = p'.val) : actR V c b co p = actR V c b' co' p' := by
  obtain rfl := Fin.ext hb; obtain rfl := Fin.ext hco; obtain rfl := Fin.ext hp; rfl

theorem stat_congr (c : Dev nD) {b b' : Fin 64} {l l' : Fin 2} {co co' : Fin 256} {e e' : Fin 2}
    (hb : b.val = b'.val) (hl : l.val = l'.val) (hco : co.val = co'.val) (he : e.val = e'.val) :
    stat V c b l co e = stat V c b' l' co' e' := by
  obtain rfl := Fin.ext hb; obtain rfl := Fin.ext hl; obtain rfl := Fin.ext hco; obtain rfl := Fin.ext he; rfl

/-- What the point leaves in the second result's buffer, at an index: its tile's two sums. -/
theorem sums_point (c : Dev nD) (t : Fin cfg0.N) (u u' : Fin 1) (co : Fin 256) (e : Fin 2) :
    ((outsAt0 V c t).2 : Vec Ideal S1x1x256x2 .f32) (ix4 u u' co e) = stat V c (rowOf t) (tileOf t) co e := by
  rw [sums_apply]
  rcases (by omega : e.val = 0 ∨ e.val = 1) with h | h
  · obtain rfl : e = 0 := Fin.ext h
    refine (pay3_apply0 _ _ u u' co).trans ?_
    unfold stat
    rw [if_pos (show (0 : Fin 2).val = 0 from rfl)]
    exact Finset.sum_congr rfl fun t' _ => pay1_point V c t co t'
  · obtain rfl : e = 1 := Fin.ext h
    refine (pay3_apply1 _ _ u u' co).trans ?_
    unfold stat
    rw [if_neg (show ¬ (1 : Fin 2).val = 0 from by decide)]
    exact Finset.sum_congr rfl fun t' _ => by rw [pay1_point V c t co t']

/-! ## From the points' tiles to the arrays -/

/-- The first result array, index by index: the rectified convolution. -/
def G2 (c : Dev nD) : S64x256x1024.Idx → EReal := fun i => actR V c (i 0) (i 1) (i 2)
/-- The second result array, index by index: each tile's two sums. -/
def G3 (c : Dev nD) : S64x2x256x2.Idx → EReal := fun i => stat V c (i 0) (i 1) (i 2) (i 3)

/-- What point `t` writes back into the first array is block `(t / 2, 0, t % 2)` of the rectified convolution. -/
theorem flushed2_eq (c : Dev nD) (t : Fin cfg0.N) :
    (dat0 V c).flushed 2 t = ((cfg0.win 2).blk t).view.read (Elt Ideal) (G2 V c) := by
  obtain ⟨-, -, -, -, -, e0, e1, e2, -⟩ := idx_facts t
  show (cfg0.win 2).cut (grid0.coords t) ((dat0 V c).after 2 t) = _
  rw [after0_2]
  funext j
  have h0 : (j 0).val < 1 := (j 0).isLt
  have h1 : (j 1).val < 256 := (j 1).isLt
  have h2 : (j 2).val < 512 := (j 2).isLt
  have hx : (cfg0.win 2).xinj (grid0.coords t) j
      = ix3 (⟨(j 0).val, h0⟩ : Fin 1) (⟨(j 1).val, h1⟩ : Fin 256) (⟨(j 2).val, h2⟩ : Fin 512) :=
    funext fun a => by match a with | ⟨0, _⟩ => rfl | ⟨1, _⟩ => rfl | ⟨2, _⟩ => rfl
  show ((outsAt0 V c t).1 : Vec Ideal S1x256x512 .f32) ((cfg0.win 2).xinj (grid0.coords t) j)
    = G2 V c (((cfg0.win 2).blk t).view.emb j)
  rw [hx]
  refine (tile_apply V c t _ _ _).trans ?_
  unfold G2
  refine actR_congr V c ?_ ?_ ?_
  · show t.val / 2 = win0_2.index t (0 : Fin 3) * 1 + 1 * (j 0).val; rw [e0]; omega
  · show (j 1).val = win0_2.index t (1 : Fin 3) * 256 + 1 * (j 1).val; rw [e1]; omega
  · show t.val % 2 * 512 + (j 2).val = win0_2.index t (2 : Fin 3) * 512 + 1 * (j 2).val; rw [e2]; omega

/-- and into the second array block `(t / 2, t % 2, 0, 0)` of the tiles' sums. -/
theorem flushed3_eq (c : Dev nD) (t : Fin cfg0.N) :
    (dat0 V c).flushed 3 t = ((cfg0.win 3).blk t).view.read (Elt Ideal) (G3 V c) := by
  obtain ⟨-, -, -, -, -, -, -, -, e0, e1, e2, e3, -⟩ := idx_facts t
  show (cfg0.win 3).cut (grid0.coords t) ((dat0 V c).after 3 t) = _
  rw [after0_3]
  funext j
  have h0 : (j 0).val < 1 := (j 0).isLt
  have h1 : (j 1).val < 1 := (j 1).isLt
  have h2 : (j 2).val < 256 := (j 2).isLt
  have h3 : (j 3).val < 2 := (j 3).isLt
  have hx : (cfg0.win 3).xinj (grid0.coords t) j
      = ix4 (⟨(j 0).val, h0⟩ : Fin 1) (⟨(j 1).val, h1⟩ : Fin 1) (⟨(j 2).val, h2⟩ : Fin 256) (⟨(j 3).val, h3⟩ : Fin 2) :=
    funext fun a => by match a with | ⟨0, _⟩ => rfl | ⟨1, _⟩ => rfl | ⟨2, _⟩ => rfl | ⟨3, _⟩ => rfl
  show ((outsAt0 V c t).2 : Vec Ideal S1x1x256x2 .f32) ((cfg0.win 3).xinj (grid0.coords t) j)
    = G3 V c (((cfg0.win 3).blk t).view.emb j)
  rw [hx]
  refine (sums_point V c t _ _ _ _).trans ?_
  unfold G3
  refine stat_congr V c ?_ ?_ ?_ ?_
  · show t.val / 2 = win0_3.index t (0 : Fin 4) * 1 + 1 * (j 0).val; rw [e0]; omega
  · show t.val % 2 = win0_3.index t (1 : Fin 4) * 1 + 1 * (j 1).val; rw [e1]; omega
  · show (j 2).val = win0_3.index t (2 : Fin 4) * 256 + 1 * (j 2).val; rw [e2]; omega
  · show (j 3).val = win0_3.index t (3 : Fin 4) * 2 + 1 * (j 3).val; rw [e3]; omega

/-- An index of the first array is in point `t`'s block iff each coordinate is in the block's range. -/
theorem mem_blk2 (t : Fin cfg0.N) (i : S64x256x1024.Idx) :
    i ∈ ((cfg0.win 2).blk t).view.set ↔ ∀ a : Fin 3, win0_2.index t a * S1x256x512.size a ≤ (i a).val
      ∧ (i a).val < win0_2.index t a * S1x256x512.size a + S1x256x512.size a := by
  show i ∈ ((View.whole main_v3_0).slice (win0_2.rect t)).set ↔ _
  rw [View.set_slice_whole, Rect.mem_set_unit]
  exact Iff.rfl

theorem mem_blk3 (t : Fin cfg0.N) (i : S64x2x256x2.Idx) :
    i ∈ ((cfg0.win 3).blk t).view.set ↔ ∀ a : Fin 4, win0_3.index t a * S1x1x256x2.size a ≤ (i a).val
      ∧ (i a).val < win0_3.index t a * S1x1x256x2.size a + S1x1x256x2.size a := by
  show i ∈ ((View.whole main_v3_1).slice (win0_3.rect t)).set ↔ _
  rw [View.set_slice_whole, Rect.mem_set_unit]
  exact Iff.rfl

/-- Position `p` of row `b` is written by point `2 b + p / 512`. -/
theorem cover2 (i : S64x256x1024.Idx) :
    ∃ t : Fin cfg0.N, (cfg0.win 2).flush t = true ∧ i ∈ ((cfg0.win 2).blk t).view.set := by
  have hi0 : (i 0).val < 64 := (i 0).isLt
  have hi1 : (i 1).val < 256 := (i 1).isLt
  have hi2 : (i 2).val < 1024 := (i 2).isLt
  obtain ⟨t, ht⟩ : ∃ t : Fin cfg0.N, t.val = 2 * (i 0).val + (i 2).val / 512 := ⟨⟨_, by rw [hN]; omega⟩, rfl⟩
  obtain ⟨-, -, -, -, -, e0, e1, e2, -⟩ := idx_facts t
  refine ⟨t, flush0_2 t, ?_⟩
  rw [mem_blk2]
  intro a
  match a with
  | ⟨0, _⟩ =>
    show win0_2.index t (0 : Fin 3) * 1 ≤ (i 0).val ∧ (i 0).val < win0_2.index t (0 : Fin 3) * 1 + 1
    rw [e0]; omega
  | ⟨1, _⟩ =>
    show win0_2.index t (1 : Fin 3) * 256 ≤ (i 1).val ∧ (i 1).val < win0_2.index t (1 : Fin 3) * 256 + 256
    rw [e1]; omega
  | ⟨2, _⟩ =>
    show win0_2.index t (2 : Fin 3) * 512 ≤ (i 2).val ∧ (i 2).val < win0_2.index t (2 : Fin 3) * 512 + 512
    rw [e2]; omega

/-- Tile `l` of row `b` has its sums written by point `2 b + l`. -/
theorem cover3 (i : S64x2x256x2.Idx) :
    ∃ t : Fin cfg0.N, (cfg0.win 3).flush t = true ∧ i ∈ ((cfg0.win 3).blk t).view.set := by
  have hi0 : (i 0).val < 64 := (i 0).isLt
  have hi1 : (i 1).val < 2 := (i 1).isLt
  have hi2 : (i 2).val < 256 := (i 2).isLt
  have hi3 : (i 3).val < 2 := (i 3).isLt
  obtain ⟨t, ht⟩ : ∃ t : Fin cfg0.N, t.val = 2 * (i 0).val + (i 1).val := ⟨⟨_, by rw [hN]; omega⟩, rfl⟩
  obtain ⟨-, -, -, -, -, -, -, -, e0, e1, e2, e3, -⟩ := idx_facts t
  refine ⟨t, flush0_3 t, ?_⟩
  rw [mem_blk3]
  intro a
  match a with
  | ⟨0, _⟩ =>
    show win0_3.index t (0 : Fin 4) * 1 ≤ (i 0).val ∧ (i 0).val < win0_3.index t (0 : Fin 4) * 1 + 1
    rw [e0]; omega
  | ⟨1, _⟩ =>
    show win0_3.index t (1 : Fin 4) * 1 ≤ (i 1).val ∧ (i 1).val < win0_3.index t (1 : Fin 4) * 1 + 1
    rw [e1]; omega
  | ⟨2, _⟩ =>
    show win0_3.index t (2 : Fin 4) * 256 ≤ (i 2).val ∧ (i 2).val < win0_3.index t (2 : Fin 4) * 256 + 256
    rw [e2]; omega
  | ⟨3, _⟩ =>
    show win0_3.index t (3 : Fin 4) * 2 ≤ (i 3).val ∧ (i 3).val < win0_3.index t (3 : Fin 4) * 2 + 2
    rw [e3]; omega

/-- So the two result arrays end holding those functions. -/
theorem arr2_eq (c : Dev nD) : (dat0 V c).arrAt 2 cfg0.N = G2 V c :=
  (dat0 V c).arrAt_eq_of_cover 2 (G2 V c) (fun t _ => flushed2_eq V c t) cover2
theorem arr3_eq (c : Dev nD) : (dat0 V c).arrAt 3 cfg0.N = G3 V c :=
  (dat0 V c).arrAt_eq_of_cover 3 (G3 V c) (fun t _ => flushed3_eq V c t) cover3

/-- After the region the first result array holds the rectified convolution. -/
theorem arr_act (c : Dev nD) (b : Fin 64) (co : Fin 256) (t : Fin 1024) :
    ((dat0 V c).arrAt 2 cfg0.N : S64x256x1024.Idx → EReal) (ix3 b co t) = actR V c b co t := by
  exact congrFun (arr2_eq V c) (ix3 b co t)

/-- and the second one each tile's sum (at 0) -/
theorem arr_stats0 (c : Dev nD) (b : Fin 64) (l : Fin 2) (co : Fin 256) :
    ((dat0 V c).arrAt 3 cfg0.N : S64x2x256x2.Idx → EReal) (ix4 b l co 0)
      = ∑ t' : Fin 512, actR V c b co ⟨l.val * 512 + t'.val, by have := l.isLt; have := t'.isLt; omega⟩ := by
  refine (congrFun (arr3_eq V c) (ix4 b l co 0)).trans ?_
  show stat V c b l co 0 = _
  unfold stat
  rw [if_pos (show (0 : Fin 2).val = 0 from rfl)]

/-- and sum of squares (at 1). -/
theorem arr_stats1 (c : Dev nD) (b : Fin 64) (l : Fin 2) (co : Fin 256) :
    ((dat0 V c).arrAt 3 cfg0.N : S64x2x256x2.Idx → EReal) (ix4 b l co 1)
      = ∑ t' : Fin 512, actR V c b co ⟨l.val * 512 + t'.val, by have := l.isLt; have := t'.isLt; omega⟩
          * actR V c b co ⟨l.val * 512 + t'.val, by have := l.isLt; have := t'.isLt; omega⟩ := by
  refine (congrFun (arr3_eq V c) (ix4 b l co 1)).trans ?_
  show stat V c b l co 1 = _
  unfold stat
  rw [if_neg (show ¬ (1 : Fin 2).val = 0 from by decide)]

end Cert.ReferenceIdeal.Conv

end
-- ==== Proof.RHost.lean ====
/-
  The host operations the reference's program runs between its two pallas_calls, read at an index at the extended reals,
  from ANY buffer contents `W` at the first region's exit: the partial sums added over batch and tile, the mean, the
  biased variance, the reciprocal root, and the two per-channel columns `scale = g * r`, `shift = be - (mean * g) * r`.
-/
import proofs.«176252_g2000201346594626_pallaspilot1_190_2_alg».proof.Defs
import proofs.«176252_g2000201346594626_pallaspilot1_190_2_alg».proof.Proof.Gen.ReferenceIdeal.Frame
import proofs.«176252_g2000201346594626_pallaspilot1_190_2_alg».proof.Proof.Spec
import Idealize.ShloMosaic.Lib.StableHlo.Run
import Idealize.ShloMosaic.Lib.KernelVsHost
import Idealize.ShloMosaic.Lib.IdealHost
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open scoped BigOperators
open Idealize.ShloMosaic Idealize.ShloMosaic.TcCoe Idealize.SL.Sem
open Idealize.ShloMosaic.Pipeline (Dat)
open Idealize.ShloMosaic.ValueIdx

namespace Cert.ReferenceIdeal.Between

open Cert.ReferenceIdeal Cert.ReferenceIdeal.Gen

-- the buffer contents at the first region's exit: a parameter
variable (W : Valuation τ sig (Elt Ideal))

/-- The two totals per channel: the partial sums added over the batch and the two tiles. -/
def total (j : Fin 2) (co : Fin 256) : EReal :=
  ∑ b : Fin 64, ∑ l : Fin 2, (W (Proc.devRef .tc main_v3_1) : S64x2x256x2.Idx → EReal) (ix4 b l co j)
def gam (co : Fin 256) : EReal := (W (Proc.devRef .tc main_arg2) : S256.Idx → EReal) (ix1 co)
def bet (co : Fin 256) : EReal := (W (Proc.devRef .tc main_arg3) : S256.Idx → EReal) (ix1 co)

/-! ## Small shapes read at coordinates -/

/-- A column of shape [a, 1] cast to a vector of shape [a] reads, at i, the column at (i, 0). -/
private theorem cast_col_vec_apply {a : ℕ} {α : Type} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- A vector of shape [a] cast to a column of shape [a, 1] reads, at (i, u), the vector at i, whatever the unit coordinate. -/
private theorem cast_vec_col_apply {a : ℕ} {α : Type} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-! ## The sum over two leading axes -/

/-- An index of the four-axis array drops to (co, j) exactly when its last two coordinates are co and j. -/
private theorem drop_eq_iff (i : S64x2x256x2.Idx) (co : Fin 256) (j : Fin 2) :
    reducesTo_S64x2x256x2_S256x2_d0_1.drop i = ix2 co j ↔ i 2 = co ∧ i 3 = j := by
  have h0 : ((reducesTo_S64x2x256x2_S256x2_d0_1.drop i) 0 : Nat) = i 2 :=
    Shape.ReducesTo.drop_apply_val_of_eq reducesTo_S64x2x256x2_S256x2_d0_1 i 0 2
  have h1 : ((reducesTo_S64x2x256x2_S256x2_d0_1.drop i) 1 : Nat) = i 3 :=
    Shape.ReducesTo.drop_apply_val_of_eq reducesTo_S64x2x256x2_S256x2_d0_1 i 1 3
  constructor
  · intro e
    rw [e] at h0 h1
    exact ⟨Fin.ext h0.symm, Fin.ext h1.symm⟩
  · rintro ⟨e2, e3⟩
    funext b
    match b with
    | ⟨0, _⟩ => exact Fin.ext (h0.trans (congrArg Fin.val e2))
    | ⟨1, _⟩ => exact Fin.ext (h1.trans (congrArg Fin.val e3))

/-- The sum over batch and tile from zero, read at (co, j): the double sum over the two dropped coordinates. -/
private theorem reduce_apply (x : S64x2x256x2.Idx → EReal) (co : Fin 256) (j : Fin 2) :
    Ideal.hostReduceAdd reducesTo_S64x2x256x2_S256x2_d0_1 x (Ideal.ofBits .f32 0x00000000#32) (ix2 co j)
      = ∑ b : Fin 64, ∑ l : Fin 2, x (ix4 b l co j) := by
  unfold Ideal.hostReduceAdd
  rw [Ideal.ofBits_zero_f32, zero_add, ← Fintype.sum_prod_type']
  symm
  refine Finset.sum_bij (fun p _ => ix4 p.1 p.2 co j) ?_ ?_ ?_ ?_
  · intro p _
    exact Finset.mem_filter.2 ⟨Finset.mem_univ _, (drop_eq_iff _ co j).2 ⟨rfl, rfl⟩⟩
  · intro p _ q _ e
    exact Prod.ext (congrFun e 0) (congrFun e 1)
  · intro i hi
    obtain ⟨rfl, rfl⟩ := (drop_eq_iff i co j).1 (Finset.mem_filter.1 hi).2
    exact ⟨(i 0, i 1), Finset.mem_univ _, (eq_ix4 i).symm⟩
  · intro p _
    rfl

/-! ## The stages the operations write, as arrays -/

/-- The partial sums added over the batch and the two tiles: one pair per channel. -/
private def sums : S256x2.Idx → EReal :=
  Host.reduceAdd (F := Ideal) (W (Proc.devRef .tc main_v3_1) : S64x2x256x2.Idx → EReal) (constant (F := Ideal) S_ .f32 0x00000000#32)
    reducesTo_S64x2x256x2_S256x2_d0_1 h_S_
/-- The first column as a vector: the totals of the values. -/
private def col0 : S256.Idx → EReal :=
  shapeCast S256 (extractStridedSlice S256x1 ![0, 0] (sums W) slices_S256x2_S256x1_0_0) shapeCasts_S256x1_S256
/-- The second column as a vector: the totals of the squares. -/
private def col1 : S256.Idx → EReal :=
  shapeCast S256 (extractStridedSlice S256x1 ![0, 1] (sums W) slices_S256x2_S256x1_0_1) shapeCasts_S256x1_S256
/-- The count, at every channel. -/
private def cntV : S256.Idx → EReal := broadcastInDim S256 ![] bcast_S_S256 (constant (F := Ideal) S_ .f32 0x47800000#32)
/-- The offset, at every channel. -/
private def epsV : S256.Idx → EReal := broadcastInDim S256 ![] bcast_S_S256 (constant (F := Ideal) S_ .f32 0x3727C5AC#32)
/-- The means. -/
private def meanV : S256.Idx → EReal := Host.divf (F := Ideal) (φ := .f32) (col0 W) cntV
/-- The reciprocal roots of the offset variances. -/
private def rstdV : S256.Idx → EReal :=
  Host.rsqrt (F := Ideal) (φ := .f32)
    (addf (F := Ideal) (φ := .f32) (subf (F := Ideal) (φ := .f32) (Host.divf (F := Ideal) (φ := .f32) (col1 W) cntV)
      (mulf (F := Ideal) (φ := .f32) (meanV W) (meanV W))) epsV)

private theorem sums_apply (co : Fin 256) (j : Fin 2) : sums W (ix2 co j) = total W j co := by
  unfold sums total
  rw [hostReduceAdd_apply]
  exact reduce_apply _ co j

private theorem col0_apply (co : Fin 256) : col0 W (ix1 co) = total W 0 co := by
  unfold col0
  rw [cast_col_vec_apply, slice2_axis1_apply 0 (sums W) slices_S256x2_S256x1_0_0 co (0 : Fin 1) (0 : Fin 2) rfl]
  exact sums_apply W co 0

private theorem col1_apply (co : Fin 256) : col1 W (ix1 co) = total W 1 co := by
  unfold col1
  rw [cast_col_vec_apply, slice2_axis1_apply 1 (sums W) slices_S256x2_S256x1_0_1 co (0 : Fin 1) (1 : Fin 2) rfl]
  exact sums_apply W co 1

private theorem cntV_apply (i : S256.Idx) : cntV i = ConvBN.cnt := by
  unfold cntV ConvBN.cnt
  rw [broadcastInDim_scalar_apply]; rfl

private theorem epsV_apply (i : S256.Idx) : epsV i = ConvBN.eps := by
  unfold epsV ConvBN.eps
  rw [broadcastInDim_scalar_apply]; rfl

private theorem meanV_apply (co : Fin 256) : meanV W (ix1 co) = ConvBN.mean (total W 0 co) := by
  unfold meanV ConvBN.mean
  show Ideal.div (col0 W (ix1 co)) (cntV (ix1 co)) = _
  rw [col0_apply, cntV_apply]

private theorem rstdV_apply (co : Fin 256) : rstdV W (ix1 co) = ConvBN.rstd (total W 0 co) (total W 1 co) := by
  unfold rstdV ConvBN.rstd ConvBN.var
  show Ideal.rsqrt (Ideal.div (col1 W (ix1 co)) (cntV (ix1 co)) - meanV W (ix1 co) * meanV W (ix1 co) + epsV (ix1 co)) = _
  rw [col1_apply, cntV_apply, meanV_apply, epsV_apply]

/-- The scale column. -/
theorem v19_eq (co : Fin 256) :
    (StableHlo.after hostOps1 W (Proc.devRef .tc main_v19) : S256x1.Idx → EReal) (ix2 co 0)
      = ConvBN.scale (gam W co) (total W 0 co) (total W 1 co) := by
  have e : (StableHlo.after hostOps1 W (Proc.devRef .tc main_v19) : S256x1.Idx → EReal)
      = shapeCast S256x1 (mulf (F := Ideal) (φ := .f32) (W (Proc.devRef .tc main_arg2) : S256.Idx → EReal) (rstdV W))
          shapeCasts_S256_S256x1 := by
    simp only [hostOps1]; after_results_simp; rfl
  rw [e, cast_vec_col_apply]
  show gam W co * rstdV W (ix1 co) = _
  rw [rstdV_apply]
  rfl

/-- The shift column. -/
theorem v23_eq (co : Fin 256) :
    (StableHlo.after hostOps1 W (Proc.devRef .tc main_v23) : S256x1.Idx → EReal) (ix2 co 0)
      = ConvBN.shiftR (gam W co) (bet W co) (total W 0 co) (total W 1 co) := by
  have e : (StableHlo.after hostOps1 W (Proc.devRef .tc main_v23) : S256x1.Idx → EReal)
      = shapeCast S256x1 (subf (F := Ideal) (φ := .f32) (W (Proc.devRef .tc main_arg3) : S256.Idx → EReal)
          (mulf (F := Ideal) (φ := .f32)
            (mulf (F := Ideal) (φ := .f32) (meanV W) (W (Proc.devRef .tc main_arg2) : S256.Idx → EReal)) (rstdV W)))
          shapeCasts_S256_S256x1 := by
    simp only [hostOps1]; after_results_simp; rfl
  rw [e, cast_vec_col_apply]
  show bet W co - meanV W (ix1 co) * gam W co * rstdV W (ix1 co) = _
  rw [rstdV_apply, meanV_apply]
  rfl

/-- The rectified values pass through untouched. -/
theorem v3_0_kept : StableHlo.after hostOps1 W (Proc.devRef .tc main_v3_0) = W (Proc.devRef .tc main_v3_0) := by
  exact StableHlo.after_of_forall_not_mem (b := Proc.devRef .tc main_v3_0) _ _ (List.forall_iff_forall_mem.mp (by
    simp only [hostOps1, List.Forall, StableHlo.nullary_writes, StableHlo.unary_writes, StableHlo.binary_writes,
      StableHlo.reshape_writes, Finset.mem_singleton]
    repeat' apply And.intro
    all_goals exact StableHlo.devRef_ne_of_ne (by decide)))

end Cert.ReferenceIdeal.Between

end
-- ==== Proof.RApply.lean ====
/-
  The second pallas_call of the reference's program, read as values at the extended reals: grid point `(b, l)` maps its
  512-position tile of rectified values by `y * scale + shift`, the two per-channel columns computed on the host before.
  Stated for the whole result array after the region, index by index.
-/
import proofs.«176252_g2000201346594626_pallaspilot1_190_2_alg».proof.Defs
import proofs.«176252_g2000201346594626_pallaspilot1_190_2_alg».proof.Proof.Gen.ReferenceIdeal.Frame
import proofs.«176252_g2000201346594626_pallaspilot1_190_2_alg».proof.Proof.Spec

import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open scoped BigOperators
open Idealize.ShloMosaic Idealize.ShloMosaic.TcCoe Idealize.SL.Sem
open Idealize.ShloMosaic.Pipeline (Dat)
open Idealize.ShloMosaic.ValueIdx

namespace Cert.ReferenceIdeal.Apply

open Cert.ReferenceIdeal Cert.ReferenceIdeal.Gen

-- the TensorCore's buffer contents when the region is entered: a parameter, as in the region's proof data
variable (V : (c : Dev nD) → (b : Ref sig .tc) → Buf (Elt Ideal) ((c : Thread nD τ).loc b))

/-- The zero offsets of a whole tile and of a whole column, however spelt. -/
theorem hz3 : (![0, 0, 0] : Fin 3 → Nat) = fun _ => 0 := funext fun a => by fin_cases a <;> rfl
theorem hz2 : (![0, 0] : Fin 2 → Nat) = fun _ => 0 := funext fun a => by fin_cases a <;> rfl

/-- A column `[a, 1]` broadcast to `[a, b]` reads, at `(p, q)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- What the body stores, read at `(u, co, t')`: the tile's value there times the scale column's entry of channel `co`, plus
    the shift column's entry of that channel. -/
theorem pay_apply (y : Vec Ideal S1x256x512 .f32) (sc sh : Vec Ideal S256x1 .f32) (u : Fin 1) (co : Fin 256) (t' : Fin 512) :
    (k1_pay1 y sc sh : S1x256x512.Idx → EReal) (ix3 u co t')
      = ConvBN.fma ((y : S1x256x512.Idx → EReal) (ix3 (0 : Fin 1) co t')) ((sc : S256x1.Idx → EReal) (ix2 co (0 : Fin 1))) ((sh : S256x1.Idx → EReal) (ix2 co (0 : Fin 1))) := by
  unfold k1_pay1 ConvBN.fma
  refine (shapeCast_ab_1ab_apply _ _ u co t').trans ?_
  rw [addf_apply, mulf_apply, shapeCast_1ab_ab_apply, broadcastTo_a1_ab_apply, broadcastTo_a1_ab_apply, shapeCast_self, shapeCast_self]

/-- The index maps over the grid: the tile window and the result window move together; the two columns stay put. -/
theorem idx_facts : ∀ t : Fin cfg1.N,
    win1_0.index t (0 : Fin 3) = win1_3.index t (0 : Fin 3)
    ∧ win1_0.index t (1 : Fin 3) = win1_3.index t (1 : Fin 3)
    ∧ win1_0.index t (2 : Fin 3) = win1_3.index t (2 : Fin 3)
    ∧ win1_1.index t (0 : Fin 2) = 0 ∧ win1_1.index t (1 : Fin 2) = 0
    ∧ win1_2.index t (0 : Fin 2) = 0 ∧ win1_2.index t (1 : Fin 2) = 0
    ∧ win1_3.index t (0 : Fin 3) ≤ 63 ∧ win1_3.index t (1 : Fin 3) = 0 ∧ win1_3.index t (2 : Fin 3) ≤ 1 :=
  (by decide +kernel : ∀ t : Fin grid1.N, _)

/-- Every tile of the result is some point's. -/
theorem idx_onto : ∀ (q0 : Fin 64) (q2 : Fin 2), ∃ t : Fin cfg1.N, win1_3.index t = ![q0.val, 0, q2.val] :=
  (by decide +kernel : ∀ (q0 : Fin 64) (q2 : Fin 2), ∃ t : Fin grid1.N, win1_3.index t = ![q0.val, 0, q2.val])

/-- The result array as one function of the three operand arrays, index by index. -/
def Gout (c : Dev nD) : S64x256x1024.Idx → EReal := fun i =>
  ConvBN.fma ((V c main_v3_0 : S64x256x1024.Idx → EReal) i)
    ((V c main_v19 : S256x1.Idx → EReal) (ix2 (⟨(i 1).val, (i 1).isLt⟩ : Fin 256) (0 : Fin 1)))
    ((V c main_v23 : S256x1.Idx → EReal) (ix2 (⟨(i 1).val, (i 1).isLt⟩ : Fin 256) (0 : Fin 1)))

/-- What point `t` writes back is its tile of that function: the rectified tile is read where the result's tile lies, the
    two columns whole. -/
theorem flushed_eq (c : Dev nD) (t : Fin cfg1.N) :
    (dat1 V c).flushed 3 t = ((cfg1.win 3).blk t).view.read (Elt Ideal) (Gout V c) := by
  show (cfg1.win 3).cut (grid1.coords t) ((dat1 V c).after 3 t) = _
  rw [after1_3]
  unfold out1_3
  rw [View.canon_unit_zero hz3]
  simp only [View.ld_unit_zero (S := S1x256x512) hz3, View.ld_unit_zero (S := S256x1) hz2]
  funext j
  obtain ⟨u, co, t', rfl⟩ : ∃ (u : Fin 1) (co : Fin 256) (t' : Fin 512), j = ix3 u co t' := ⟨j 0, j 1, j 2, eq_ix3 j⟩
  show (k1_pay1 (iblk1 V c 0 t) (iblk1 V c 1 t) (iblk1 V c 2 t) : S1x256x512.Idx → EReal) (ix3 u co t') = Gout V c (((cfg1.win 3).blk t).view.emb (ix3 u co t'))
  refine (pay_apply (iblk1 V c 0 t) (iblk1 V c 1 t) (iblk1 V c 2 t) u co t').trans ?_
  obtain ⟨e0, e1, e2, e3, e4, e5, e6, e7, e8, e9⟩ := idx_facts t
  unfold Gout
  refine congr (congr (congrArg ConvBN.fma ?_) ?_) ?_
  · show (V c main_v3_0 : S64x256x1024.Idx → EReal) (((cfg1.win 0).blk t).view.emb (ix3 (0 : Fin 1) co t')) = _
    refine congrArg _ (funext fun a => Fin.ext ?_)
    match a with
    | ⟨0, _⟩ => show win1_0.index t (0 : Fin 3) * 1 + 1 * 0 = win1_3.index t (0 : Fin 3) * 1 + 1 * u.val; have := u.isLt; omega
    | ⟨1, _⟩ => show win1_0.index t (1 : Fin 3) * 256 + 1 * co.val = win1_3.index t (1 : Fin 3) * 256 + 1 * co.val; omega
    | ⟨2, _⟩ => show win1_0.index t (2 : Fin 3) * 512 + 1 * t'.val = win1_3.index t (2 : Fin 3) * 512 + 1 * t'.val; omega
  · show (V c main_v19 : S256x1.Idx → EReal) (((cfg1.win 1).blk t).view.emb (ix2 co (0 : Fin 1))) = _
    refine congrArg _ (funext fun a => Fin.ext ?_)
    match a with
    | ⟨0, _⟩ => show win1_1.index t (0 : Fin 2) * 256 + 1 * co.val = win1_3.index t (1 : Fin 3) * 256 + 1 * co.val; omega
    | ⟨1, _⟩ => show win1_1.index t (1 : Fin 2) * 1 + 1 * 0 = 0; omega
  · show (V c main_v23 : S256x1.Idx → EReal) (((cfg1.win 2).blk t).view.emb (ix2 co (0 : Fin 1))) = _
    refine congrArg _ (funext fun a => Fin.ext ?_)
    match a with
    | ⟨0, _⟩ => show win1_2.index t (0 : Fin 2) * 256 + 1 * co.val = win1_3.index t (1 : Fin 3) * 256 + 1 * co.val; omega
    | ⟨1, _⟩ => show win1_2.index t (1 : Fin 2) * 1 + 1 * 0 = 0; omega

/-- An index of the result array is in point `t`'s tile iff each coordinate is in the tile's range on its axis. -/
theorem mem_blk (t : Fin cfg1.N) (i : S64x256x1024.Idx) :
    i ∈ ((cfg1.win 3).blk t).view.set ↔ ∀ a : Fin 3, win1_3.index t a * S1x256x512.size a ≤ (i a).val ∧ (i a).val < win1_3.index t a * S1x256x512.size a + S1x256x512.size a := by
  show i ∈ ((View.whole main_v24).slice (win1_3.rect t)).set ↔ _
  rw [View.set_slice_whole, Rect.mem_set_unit]
  exact Iff.rfl

/-- Position `p` of row `b` lies in the tile of the point `(b, p / 512)`. -/
theorem cover (i : S64x256x1024.Idx) : ∃ t : Fin cfg1.N, (cfg1.win 3).flush t = true ∧ i ∈ ((cfg1.win 3).blk t).view.set := by
  have hi0 : (i 0).val < 64 := (i 0).isLt
  have hi1 : (i 1).val < 256 := (i 1).isLt
  have hi2 : (i 2).val < 1024 := (i 2).isLt
  obtain ⟨t, ht⟩ := idx_onto ⟨(i 0).val, hi0⟩ ⟨(i 2).val / 512, by omega⟩
  have q0 : win1_3.index t (0 : Fin 3) = (i 0).val := congrFun ht 0
  have q1 : win1_3.index t (1 : Fin 3) = 0 := congrFun ht 1
  have q2 : win1_3.index t (2 : Fin 3) = (i 2).val / 512 := congrFun ht 2
  refine ⟨t, flush1_3 t, ?_⟩
  rw [mem_blk]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 256 ≤ (i 1).val ∧ (i 1).val < win1_3.index t (1 : Fin 3) * 256 + 256; omega
  | ⟨2, _⟩ => show win1_3.index t (2 : Fin 3) * 512 ≤ (i 2).val ∧ (i 2).val < win1_3.index t (2 : Fin 3) * 512 + 512; omega

/-- The tiles cover the result array, so after the region it is that one function everywhere. -/
theorem final (c : Dev nD) : (dat1 V c).arrAt 3 cfg1.N = Gout V c :=
  (dat1 V c).arrAt_eq_of_cover 3 (Gout V c) (fun t _ => flushed_eq V c t) (cover)

/-- After the region the result array is `y * scale + shift`, channel by channel. -/
theorem arr_out (c : Dev nD) (b : Fin 64) (co : Fin 256) (t : Fin 1024) :
    ((dat1 V c).arrAt 3 cfg1.N : S64x256x1024.Idx → EReal) (ix3 b co t)
      = ConvBN.fma ((V c main_v3_0 : S64x256x1024.Idx → EReal) (ix3 b co t)) ((V c main_v19 : S256x1.Idx → EReal) (ix2 co 0))
          ((V c main_v23 : S256x1.Idx → EReal) (ix2 co 0)) := by
  exact congrFun (final V c) (ix3 b co t)

end Cert.ReferenceIdeal.Apply

end
-- ==== Proof.RValue.lean ====
/-
  The reference's program as ONE function of its arguments, at the extended reals. The host pads `x` and flattens the
  transposed weights before the first call; between the calls it adds the first call's partial sums over batch and tile
  and forms the two per-channel columns; the second call scales and shifts. The first call's single contraction over 640
  is the five taps of 128 (`ConvBN.conv640_eq`), the partial sums over two tiles of 512 add up to the row sums
  (`ConvBN.tot_tiles`), and the shift's product re-associates (`ConvBN.outR_eq_outK`): the result buffer after the run is
  the specification `ConvBN.G` of the four arguments as launched.
-/
import proofs.«176252_g2000201346594626_pallaspilot1_190_2_alg».proof.Defs
import proofs.«176252_g2000201346594626_pallaspilot1_190_2_alg».proof.Proof.Gen.ReferenceIdeal.Frame
import proofs.«176252_g2000201346594626_pallaspilot1_190_2_alg».proof.Proof.Spec
import proofs.«176252_g2000201346594626_pallaspilot1_190_2_alg».proof.Proof.RPre
import proofs.«176252_g2000201346594626_pallaspilot1_190_2_alg».proof.Proof.RConv
import proofs.«176252_g2000201346594626_pallaspilot1_190_2_alg».proof.Proof.RHost
import proofs.«176252_g2000201346594626_pallaspilot1_190_2_alg».proof.Proof.RApply
import Idealize.ShloMosaic.Lib.Pipeline.Value
import Idealize.ShloMosaic.Lib.ValueIdx
import Idealize.ShloMosaic.Lib.StableHlo.Run
import Idealize.ShloMosaic.Lib.Tactic

set_option maxRecDepth 16384

noncomputable section

open scoped BigOperators
open Idealize.ShloMosaic Idealize.ShloMosaic.TcCoe Idealize.SL.Sem
open Idealize.ShloMosaic.Pipeline (Dat)
open Idealize.ShloMosaic.ValueIdx

namespace Cert.ReferenceIdeal.Whole

open Cert.ReferenceIdeal Cert.ReferenceIdeal.Gen

variable (m : (ℓ : Loc nD τ sig) → Buf (Elt Ideal) ℓ) (ρ : Dev nD → PrngReg)

/-- A buffer no operation of the host stretch between the calls writes holds after it what it held before. -/
macro "kept_between" : tactic => `(tactic| (
  refine StableHlo.after_of_forall_not_mem _ _ (List.forall_iff_forall_mem.mp ?_)
  simp only [hostOps1, List.Forall, StableHlo.nullary_writes, StableHlo.unary_writes, StableHlo.binary_writes,
    StableHlo.reshape_writes, Finset.mem_singleton]
  repeat' apply And.intro
  all_goals exact StableHlo.devRef_ne_of_ne (by decide)))

/-! ## The first call's rectified contraction is the specification's rectified convolution -/

theorem actR_eq (c : Dev nD) (b : Fin 64) (co : Fin 256) (t : Fin 1024) :
    Conv.actR (V3 m ρ) c b co t = ConvBN.act (ConvBN.xpad (Pre.xs m c)) (Pre.ws m c) b co t.val := by
  unfold Conv.actR ConvBN.act
  refine congrArg (fun z => max z (0 : EReal)) ?_
  rw [← ConvBN.conv640_eq (ConvBN.xpad (Pre.xs m c)) (Pre.ws m c) (Conv.wmin (V3 m ρ) c)
    (fun co j => Pre.V3_v2 m ρ c co j) b co t.val]
  unfold ConvBN.conv640
  refine Finset.sum_congr rfl fun j _ => ?_
  have hp : t.val + j.val / 128 < 1028 := by have := t.isLt; have := j.isLt; omega
  refine congrArg (fun z => Conv.wmin (V3 m ρ) c co j * z) ?_
  unfold Conv.xpin
  rw [dif_pos hp]
  exact Pre.V3_v0 m ρ c b _ ⟨_, hp⟩

/-! ## Between the calls -/

/-- The arguments are untouched at the first call's exit. -/
theorem W4_arg2 (c : Dev nD) : W4 m ρ c (Proc.devRef .tc main_arg2) = m ((c : Thread nD τ).loc main_arg2) :=
  (show StableHlo.after hostOps1 (W4 m ρ c) (Proc.devRef .tc main_arg2) = W4 m ρ c (Proc.devRef .tc main_arg2) by kept_between).symm.trans
    ((W6_of_ne m ρ c main_arg2 (by decide)).symm.trans (W6_main_arg2 m ρ c))
theorem W4_arg3 (c : Dev nD) : W4 m ρ c (Proc.devRef .tc main_arg3) = m ((c : Thread nD τ).loc main_arg3) :=
  (show StableHlo.after hostOps1 (W4 m ρ c) (Proc.devRef .tc main_arg3) = W4 m ρ c (Proc.devRef .tc main_arg3) by kept_between).symm.trans
    ((W6_of_ne m ρ c main_arg3 (by decide)).symm.trans (W6_main_arg3 m ρ c))

theorem gam_eq (c : Dev nD) (co : Fin 256) : Between.gam (W4 m ρ c) co = Pre.gs m c co := by
  unfold Between.gam Pre.gs; rw [W4_arg2]
theorem bet_eq (c : Dev nD) (co : Fin 256) : Between.bet (W4 m ρ c) co = Pre.bs m c co := by
  unfold Between.bet Pre.bs; rw [W4_arg3]

/-- The partial sums added over batch and tile are the totals of the rectified convolution -/
theorem total0_eq (c : Dev nD) (co : Fin 256) :
    Between.total (W4 m ρ c) 0 co = ConvBN.tot fun b' t' => ConvBN.act (ConvBN.xpad (Pre.xs m c)) (Pre.ws m c) b' co t'.val := by
  unfold Between.total
  rw [show W4 m ρ c (Proc.devRef .tc main_v3_1) = (dat0 (V3 m ρ) c).arrAt 3 cfg0.N from W4_arr m ρ c 3]
  simp only [Conv.arr_stats0 (V3 m ρ) c, actR_eq]
  exact ConvBN.tot_tiles fun b' t' => ConvBN.act (ConvBN.xpad (Pre.xs m c)) (Pre.ws m c) b' co t'.val
/-- and of its square. -/
theorem total1_eq (c : Dev nD) (co : Fin 256) :
    Between.total (W4 m ρ c) 1 co = ConvBN.tot fun b' t' => ConvBN.act (ConvBN.xpad (Pre.xs m c)) (Pre.ws m c) b' co t'.val
      * ConvBN.act (ConvBN.xpad (Pre.xs m c)) (Pre.ws m c) b' co t'.val := by
  unfold Between.total
  rw [show W4 m ρ c (Proc.devRef .tc main_v3_1) = (dat0 (V3 m ρ) c).arrAt 3 cfg0.N from W4_arr m ρ c 3]
  simp only [Conv.arr_stats1 (V3 m ρ) c, actR_eq]
  exact ConvBN.tot_tiles fun b' t' => ConvBN.act (ConvBN.xpad (Pre.xs m c)) (Pre.ws m c) b' co t'.val
    * ConvBN.act (ConvBN.xpad (Pre.xs m c)) (Pre.ws m c) b' co t'.val

/-- The second call finds the rectified convolution as the first call left it. -/
theorem V5_act (c : Dev nD) : V5 m ρ c main_v3_0 = (dat0 (V3 m ρ) c).arrAt 2 cfg0.N :=
  (Between.v3_0_kept (W4 m ρ c)).trans (W4_arr m ρ c 2)

/-! ## The whole program -/

/-- The result buffer after the run, index by index, is the specification of the arguments as launched. -/
theorem result (c : Dev nD) (b : Fin 64) (co : Fin 256) (t : Fin 1024) :
    (V6 m ρ c main_v24 : S64x256x1024.Idx → EReal) (ix3 b co t)
      = ConvBN.G (Pre.xs m c) (Pre.ws m c) (Pre.gs m c) (Pre.bs m c) b co t := by
  have h6 : V6 m ρ c main_v24 = (dat1 (V5 m ρ) c).arrAt 3 cfg1.N := W6_arr m ρ c 3
  rw [h6, Apply.arr_out (V5 m ρ) c b co t,
    show (V5 m ρ c main_v19 : S256x1.Idx → EReal) (ix2 co 0) = _ from Between.v19_eq (W4 m ρ c) co,
    show (V5 m ρ c main_v23 : S256x1.Idx → EReal) (ix2 co 0) = _ from Between.v23_eq (W4 m ρ c) co,
    V5_act, Conv.arr_act (V3 m ρ) c b co t, actR_eq, gam_eq, bet_eq, total0_eq, total1_eq]
  exact ConvBN.outR_eq_outK _ _ _ _ _

end Cert.ReferenceIdeal.Whole

end
-- ==== Proof.lean ====
/-
  The certificate of a width-5 convolution along the last axis, rectified, then normalised per output channel by the
  batch statistics of the rectified values, computed by two programs that each make two passes: the first pass writes
  the rectified convolution and partial sums, the second the affine map with the mean and the reciprocal root of the
  variance folded into a scale and a shift.
  At the extended reals both programs end with the result buffer at ONE function of the four arguments, the
  specification `ConvBN.G` (Proof/Spec.lean): the kernel's by Proof/KValue.lean (its passes in KConv.lean and
  KApply.lean), the reference's by Proof/RValue.lean (its passes in RConv.lean and RApply.lean, its host arithmetic in
  RPre.lean and RHost.lean). They differ in how sums are grouped — five taps of 128 input channels against one
  contraction over 640, rows of 1024 positions against two tiles of 512, a batch sum against a sum over batch and
  tile — and in how one product of three factors is associated; sums and products of extended reals are commutative
  monoids, so no finiteness of the inputs is used. The three frames are the generated ones, and the idealized kernel is
  the kernel's own text read at the extended reals (no rewrite was applied), so `preserves` is trivial.
-/
import proofs.«176252_g2000201346594626_pallaspilot1_190_2_alg».proof.Defs
import proofs.«176252_g2000201346594626_pallaspilot1_190_2_alg».proof.Proof.Gen.Kernel
import proofs.«176252_g2000201346594626_pallaspilot1_190_2_alg».proof.Proof.Gen.Kernel.Frame
import proofs.«176252_g2000201346594626_pallaspilot1_190_2_alg».proof.Proof.Gen.KernelIdeal
import proofs.«176252_g2000201346594626_pallaspilot1_190_2_alg».proof.Proof.Gen.KernelIdeal.Frame
import proofs.«176252_g2000201346594626_pallaspilot1_190_2_alg».proof.Proof.Gen.ReferenceIdeal
import proofs.«176252_g2000201346594626_pallaspilot1_190_2_alg».proof.Proof.Gen.ReferenceIdeal.Frame
import proofs.«176252_g2000201346594626_pallaspilot1_190_2_alg».proof.Proof.Gen.Pre_finite_inputs
import proofs.«176252_g2000201346594626_pallaspilot1_190_2_alg».proof.Proof.KRun
import proofs.«176252_g2000201346594626_pallaspilot1_190_2_alg».proof.Proof.RRun
import proofs.«176252_g2000201346594626_pallaspilot1_190_2_alg».proof.Proof.KValue
import proofs.«176252_g2000201346594626_pallaspilot1_190_2_alg».proof.Proof.RValue
import Idealize.ShloMosaic.Adequacy
import Idealize.ShloMosaic.Init

noncomputable section

namespace Cert.Proof

open Idealize.ShloMosaic Idealize.ShloMosaic.TcCoe Idealize.SL.Sem
open Idealize.ShloMosaic.ValueIdx

/-- From memories that agree on the four arguments the two programs' result buffers after the run agree: each is the
    specification of its own arguments, index by index. -/
theorem results_agree
    (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (ρ' : Dev Cert.ReferenceIdeal.nD → PrngReg)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    (Cert.ReferenceIdeal.Gen.V6 m' ρ' c Cert.ReferenceIdeal.main_v24 : Cert.ReferenceIdeal.S64x256x1024.Idx → EReal)
      = (Cert.KernelIdeal.Gen.V4 m ρ c Cert.KernelIdeal.main_v5 : Cert.KernelIdeal.S64x256x1024.Idx → EReal) := by
  funext i
  obtain ⟨b, co, t, rfl⟩ : ∃ (b : Fin 64) (co : Fin 256) (t : Fin 1024), i = ix3 b co t := ⟨i 0, i 1, i 2, eq_ix3 i⟩
  rw [Cert.ReferenceIdeal.Whole.result m' ρ' c b co t, Cert.KernelIdeal.Whole.result m ρ c b co t]
  have hx : Cert.ReferenceIdeal.Pre.xs m' c = Cert.KernelIdeal.Whole.xs m c := by
    unfold Cert.ReferenceIdeal.Pre.xs Cert.KernelIdeal.Whole.xs; rw [h0]
  have hw : Cert.ReferenceIdeal.Pre.ws m' c = Cert.KernelIdeal.Whole.ws m c := by
    unfold Cert.ReferenceIdeal.Pre.ws Cert.KernelIdeal.Whole.ws; rw [h1]
  have hg : Cert.ReferenceIdeal.Pre.gs m' c = Cert.KernelIdeal.Whole.gs m c := by
    unfold Cert.ReferenceIdeal.Pre.gs Cert.KernelIdeal.Whole.gs; rw [h2]
  have hb : Cert.ReferenceIdeal.Pre.bs m' c = Cert.KernelIdeal.Whole.bs m c := by
    unfold Cert.ReferenceIdeal.Pre.bs Cert.KernelIdeal.Whole.bs; rw [h3]
  rw [hx, hw, hg, hb]

theorem frame_k [Cert.Kernel.Facts] [Cert.Pre_finite_inputs.Facts] : Cert.frame_Kernel :=
  fun m ρ _ => Cert.Kernel.Gen.frame m ρ
theorem frame_ki [Cert.KernelIdeal.Facts] [Cert.Pre_finite_inputs.Facts] : Cert.frame_KernelIdeal :=
  fun m ρ _ => Cert.KernelIdeal.Gen.frame m ρ
theorem frame_ri [Cert.ReferenceIdeal.Facts] [Cert.Pre_finite_inputs.Facts] : Cert.frame_ReferenceIdeal :=
  fun m ρ _ => Cert.ReferenceIdeal.Gen.frame m ρ

/-- Both programs run, and end with equal results: the kernel's result buffer is the witness, the reference's equals
    it by `results_agree`. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.KernelIdeal.Gen.V4 m ρ c Cert.KernelIdeal.main_v5, Cert.KernelIdeal.Gen.run_main (F := Ideal) m ρ, ?_⟩
  refine (θ_run Cert.ReferenceIdeal.defs _ _).mono (fun _ h c => ⟨(h c).1.trans ?_, (h c).2⟩)
    (Cert.ReferenceIdeal.Gen.run_main (F := Ideal) m' ρ')
  exact results_agree m ρ m' ρ' c (hagree c).1 (hagree c).2.1 (hagree c).2.2.1 (hagree c).2.2.2

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
